-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) (main_arg2 : IVec S8192x8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S8192x1 : Shape := ⟨2, ![8192, 1]⟩
abbrev S1x8192 : Shape := ⟨2, ![1, 8192]⟩
abbrev S128x64 : Shape := ⟨2, ![128, 64]⟩
abbrev S128x1 : Shape := ⟨2, ![128, 1]⟩
abbrev S64x8192 : Shape := ⟨2, ![64, 8192]⟩
abbrev S128x8192 : Shape := ⟨2, ![128, 8192]⟩
abbrev S128 : Shape := ⟨1, ![128]⟩
abbrev S1x64 : Shape := ⟨2, ![1, 64]⟩
abbrev S8192 : Shape := ⟨1, ![8192]⟩
abbrev S_ : Shape := ⟨0, ![]⟩

abbrev nBuf : Space → Nat
  | .hbm => 25
  | .vmem => 24
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .i32⟩
  | .hbm, ⟨3, _⟩ => ⟨S8192x1, .f32⟩
  | .hbm, ⟨4, _⟩ => ⟨S1x8192, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S8192x64, .f32⟩
  | .local _ .vmem, ⟨3, _⟩ => ⟨S128x1, .f32⟩
  | .local _ .vmem, ⟨4, _⟩ => ⟨S128x1, .f32⟩
  | .local _ .vmem, ⟨5, _⟩ => ⟨S1x8192, .f32⟩
  | .local _ .vmem, ⟨6, _⟩ => ⟨S128x64, .f32⟩
  | .local _ .vmem, ⟨7, _⟩ => ⟨S128x64, .f32⟩
  | .local _ .vmem, ⟨8, _⟩ => ⟨S8192x64, .f32⟩
  | .local _ .vmem, ⟨9, _⟩ => ⟨S128x8192, .i32⟩
  | .local _ .vmem, ⟨10, _⟩ => ⟨S128x8192, .i32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x64, .f32⟩
  | .local _ .vmem, ⟨16, _⟩ => ⟨S128x64, .f32⟩
  | .local _ .vmem, ⟨17, _⟩ => ⟨S8192x64, .f32⟩
  | .local _ .vmem, ⟨18, _⟩ => ⟨S128x8192, .i32⟩
  | .local _ .vmem, ⟨19, _⟩ => ⟨S128x8192, .i32⟩
  | .local _ .vmem, ⟨20, _⟩ => ⟨S128x1, .f32⟩
  | .local _ .vmem, ⟨21, _⟩ => ⟨S128x1, .f32⟩
  | .local _ .vmem, ⟨22, _⟩ => ⟨S128x1, .f32⟩
  | .local _ .vmem, ⟨23, _⟩ => ⟨S128x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x8192 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1x8192_S1x8192_0_0 : ∀ a, (![0, 0] : Fin 2 → Nat) a + S1x8192.size a ≤ S1x8192.size a
  h_S1x8192 : 0 < S1x8192.numel
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  transposes_S8192x64_p1_0_S64x8192 : S8192x64.Transposes [1, 0] S64x8192
  reduces_S128x64_S128 : S128x64.Reduces [1] S128
  shapeCasts_S128_S128x1 : S128.ShapeCasts S128x1
  broadcasts_S128x1_S128x8192 : S128x1.Broadcasts S128x8192
  broadcasts_S1x8192_S128x8192 : S1x8192.Broadcasts S128x8192
  reduces_S128x8192_S128 : S128x8192.Reduces [1] S128
  inb_S128x1_S128x1_0_0 : ∀ a, (![0, 0] : Fin 2 → Nat) a + S128x1.size a ≤ S128x1.size a
  h_S128x1 : 0 < S128x1.numel
  shapeCasts_S1x8192_S1x8192 : S1x8192.ShapeCasts S1x8192
  reduces_S128x8192_S8192 : S128x8192.Reduces [0] S8192
  shapeCasts_S8192_S1x8192 : S8192.ShapeCasts S1x8192
  shapeCasts_S1x8192_S8192x1 : S1x8192.ShapeCasts S8192x1
  inb_S128x8192_S128x8192_0_0 : ∀ a, (![0, 0] : Fin 2 → Nat) a + S128x8192.size a ≤ S128x8192.size a
  h_S128x8192 : 0 < S128x8192.numel
  shapeCasts_S128x1_S128x1 : S128x1.ShapeCasts S128x1
  reducesTo_S8192x1_S_d0_1 : S8192x1.ReducesTo [0, 1] S_
  h_S_ : 0 < S_.numel
  dot_S128x64_S64x8192_S128x8192_1_0_0_1_n_n_wf : DotDims.WF S128x64 S64x8192 S128x8192 [1] [0] [0] [1] [] []
  dot_S1x64_S8192x64_S1x8192_1_1_0_0_n_n_wf : DotDims.WF S1x64 S8192x64 S1x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S8192x64.size a
  hwx1_0 : ∀ i : grid1.Coords, EltTy.bits .f32 = 32 ∨ (Rect.block (s := S8192x64) S128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8192.size a ≤ S8192x8192.size a
  hwx1_2 : ∀ i : grid1.Coords, EltTy.bits .i32 = 32 ∨ (Rect.block (s := S8192x8192) S128x8192.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S8192x1.size a
  hwx1_3 : ∀ i : grid1.Coords, EltTy.bits .f32 = 32 ∨ (Rect.block (s := S8192x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S8192x1.size a
  hwx1_4 : ∀ i : grid1.Coords, EltTy.bits .f32 = 32 ∨ (Rect.block (s := S8192x1) S128x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S8192x64.size a
  hwx2_0 : ∀ i : grid2.Coords, EltTy.bits .f32 = 32 ∨ (Rect.block (s := S8192x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S8192x8192.size a
  hwx2_2 : ∀ i : grid2.Coords, EltTy.bits .i32 = 32 ∨ (Rect.block (s := S8192x8192) S128x8192.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S8192x1.size a
  hwx2_3 : ∀ i : grid2.Coords, EltTy.bits .f32 = 32 ∨ (Rect.block (s := S8192x1) S128x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S8192x1.size a
  hwx2_4 : ∀ i : grid2.Coords, EltTy.bits .f32 = 32 ∨ (Rect.block (s := S8192x1) S128x1.size (cc2_transform_4 i) (hinb2_4 i)).WholeWords (EltTy.packing .f32)

variable [Facts₀]

def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf
def dot_S1x64_S8192x64_S1x8192_1_1_0_0_n_n : DotDims S1x64 S8192x64 S1x8192 where
  lhsContracting := [1]
  rhsContracting := [1]
  lhsNonContracting := [0]
  rhsNonContracting := [0]
  lhsBatch := []
  rhsBatch := []
  wf := dot_S1x64_S8192x64_S1x8192_1_1_0_0_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x8192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S128x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S128x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S1x8192 : Shape := ⟨2, ![1, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .i32⟩
  | .hbm, ⟨3, _⟩ => ⟨S8192x8192, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S64x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x64_S64x8192_1_0 : S8192x64.Transposes [1, 0] S64x8192
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  bcast_S_S8192x1 : S_.BroadcastsInDim S8192x1 (![] : Fin 0 → Fin S8192x1.rank)
  reducesTo_S8192_S_d0 : S8192.ReducesTo [0] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  The mathematics of the contrastive loss, over the extended reals, as functions of the three argument arrays:
  two embedding matrices `x y : 8192 × 64` and an integer weight matrix `p : 8192 × 8192`.

  `sim x y i j = exp ((⟨x_i, y_j⟩ / (‖x_i‖ · ‖y_j‖)) / τ)` is the exponentiated cosine similarity of row `i` of `x`
  and row `j` of `y`; `‖·‖` is the root of the sum of squares and `τ` the float 0.8. Whatever the arguments, `sim`
  is an exponential, hence lies in `[0, ⊤]`.

  The loss is `½ · L (rows) + ½ · L (columns)`, where `L` is minus the mean of the logarithm of a normalised, weighted
  row sum. The two programs normalise at different places:
    * one divides the weighted sum by the normaliser:   `(∑ⱼ sᵢⱼ · wᵢⱼ) / (cᵢ + ε)`            (`normAfter`),
    * the other divides every term first:               `∑ⱼ (sᵢⱼ / ((∑ⱼ sᵢⱼ) + ε)) · wᵢⱼ`     (`normBefore`),
  with `cᵢ = ∑ⱼ sᵢⱼ`. That these agree on the extended reals, for `s ≥ 0` and real weights, is the one law of the
  certificate (Law.lean).
-/
import Idealize.ShloMosaic.PureOps.Ideal
import Idealize.ShloMosaic.Lib.ValueIdx

noncomputable section

namespace Contrastive

open Idealize.ShloMosaic Idealize.ShloMosaic.ValueIdx

/-- An embedding matrix: 8192 rows of 64 extended reals. -/
abbrev Emb : Type := (⟨2, ![8192, 64]⟩ : Shape).Idx → EReal
/-- The integer weights, one 32-bit word per pair of rows. -/
abbrev Wts : Type := (⟨2, ![8192, 8192]⟩ : Shape).Idx → BitVec 32
/-- A column of 8192 values, as the programs keep it: shape 8192 × 1. -/
abbrev Col : Type := (⟨2, ![8192, 1]⟩ : Shape).Idx → EReal
/-- A row of 8192 values: shape 1 × 8192. -/
abbrev Row : Type := (⟨2, ![1, 8192]⟩ : Shape).Idx → EReal

/-- The temperature 0.8, the stabiliser 1e-8, the count 8192 and the weight ½, each as its float's exact value. -/
def tau : EReal := Ideal.ofBits .f32 0x3F4CCCCD#32
def eps : EReal := Ideal.ofBits .f32 0x322BCC77#32
def cnt : EReal := Ideal.ofBits .f32 0x46000000#32
def half : EReal := Ideal.ofBits .f32 0x3F000000#32

/-- The inner product of row `i` of `x` and row `j` of `y`. -/
def dot (x y : Emb) (i j : Fin 8192) : EReal := ∑ d : Fin 64, x (ix2 i d) * y (ix2 j d)
/-- The Euclidean norm of row `i`. -/
def nrm (x : Emb) (i : Fin 8192) : EReal := Ideal.sqrt (∑ d : Fin 64, x (ix2 i d) * x (ix2 i d))
/-- The exponentiated cosine similarity of row `i` of `x` and row `j` of `y`, at temperature `tau`. -/
def sim (x y : Emb) (i j : Fin 8192) : EReal :=
  Ideal.exp (Ideal.div (Ideal.div (dot x y i j) (nrm x i * nrm y j)) tau)
/-- The weight of the pair `(i, j)`: the integer word read signed, as a real. -/
def wt (p : Wts) (i j : Fin 8192) : EReal := (((p (ix2 i j)).toInt : ℝ) : EReal)

/-- Row sums and column sums of the similarity matrix. -/
def rowSum (x y : Emb) (i : Fin 8192) : EReal := ∑ j : Fin 8192, sim x y i j
def colSum (x y : Emb) (j : Fin 8192) : EReal := ∑ i : Fin 8192, sim x y i j

/-- The weighted sum of row `i` of a matrix `s`, divided by a given normaliser plus `eps`. -/
def normAfter (s : Fin 8192 → Fin 8192 → EReal) (p : Wts) (c : Fin 8192 → EReal) (i : Fin 8192) : EReal :=
  Ideal.div (∑ j : Fin 8192, s i j * wt p i j) (c i + eps)
/-- Every entry of row `i` divided by the row's own sum plus `eps` first, then weighted and summed. -/
def normBefore (s : Fin 8192 → Fin 8192 → EReal) (p : Wts) (i : Fin 8192) : EReal :=
  ∑ j : Fin 8192, Ideal.div (s i j) ((∑ j : Fin 8192, s i j) + eps) * wt p i j

/-- Minus the mean of the logarithms of 8192 values. -/
def negMeanLog (v : Fin 8192 → EReal) : EReal := -(Ideal.div (∑ i : Fin 8192, Ideal.log (v i)) cnt)

/-- The loss as the kernel computes it: row direction over `sim x y` normalised by its row sums; column direction over
    `sim y x` (the roles of the matrices exchanged) normalised by the column sums of `sim x y`. -/
def lossK (x y : Emb) (p : Wts) : EReal :=
  half * negMeanLog (normAfter (sim x y) p (rowSum x y)) + half * negMeanLog (normAfter (sim y x) p (colSum x y))

/-- The loss as the reference computes it: both directions over `sim x y`, the second over its transpose. -/
def lossR (x y : Emb) (p : Wts) : EReal :=
  half * negMeanLog (normBefore (sim x y) p) + half * negMeanLog (normBefore (fun a b => sim x y b a) p)

/-- The arrays the kernel's three launches leave, as functions of what they read. -/
def rowSumArr (x y : Emb) : Col := fun i => rowSum x y (i 0)
def colSumArr (x y : Emb) : Row := fun i => colSum x y (i 1)
/-- What a masked launch writes: `normAfter` over `sim x y` with the normaliser read from a column array `c`. -/
def maskedArr (x y : Emb) (p : Wts) (c : Col) : Col := fun i => normAfter (sim x y) p (fun k => c (ix2 k 0)) (i 0)
/-- The host's closing operations on the two columns the masked launches wrote. -/
def tail (a b : Col) : EReal :=
  half * negMeanLog (fun i => a (ix2 i 0)) + half * negMeanLog (fun i => b (ix2 i 0))

end Contrastive

end
-- ==== Proof.SimBlock.lean ====
/-
  The similarity block. Each of the three launches recomputes, for its 128 rows `x0` against all 8192 rows `x1`,
  the 128 × 8192 block of exponentiated cosine similarities. Read at an entry `(r, j)` it is
  `exp ((⟨x0_r, x1_j⟩ / (‖x0_r‖ · ‖x1_j‖)) / τ)`: the matrix product against the transposed rows is the inner product,
  the lane sum of squares and the product of a row of ones with the squared rows are both the sum of squares.
-/
import proofs.«143298_j80711025426432_1_alg».proof.Proof.Gen.KernelIdeal.Skeleton
import proofs.«143298_j80711025426432_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.SimBlock

open Cert.KernelIdeal Cert.KernelIdeal.Gen
open Idealize.ShloMosaic Idealize.ShloMosaic.ValueIdx
open Contrastive

/-! ## The inner products: the matrix product of the rows against the transposed rows -/

theorem lhs_prod_0 (i : S128x8192.Idx) (q : dot_S128x64_S64x8192_S128x8192_1_0_0_1_n_n.contr.Idx) :
    (dot_S128x64_S64x8192_S128x8192_1_0_0_1_n_n.lhsIdx i q 0).val = (i 0).val := by
  unfold DotDims.lhsIdx
  rw [dif_neg (show ¬(0 : Fin S128x64.rank) ∈ dot_S128x64_S64x8192_S128x8192_1_0_0_1_n_n.lhsBatch by decide), dif_pos (show (0 : Fin S128x64.rank) ∈ dot_S128x64_S64x8192_S128x8192_1_0_0_1_n_n.lhsNonContracting by decide)]
  rfl
theorem lhs_prod_1 (i : S128x8192.Idx) (q : dot_S128x64_S64x8192_S128x8192_1_0_0_1_n_n.contr.Idx) :
    (dot_S128x64_S64x8192_S128x8192_1_0_0_1_n_n.lhsIdx i q 1).val = (q ⟨0, by decide⟩).val :=
  dot_S128x64_S64x8192_S128x8192_1_0_0_1_n_n.lhsIdx_val_of_single rfl i q
theorem rhs_prod_0 (i : S128x8192.Idx) (q : dot_S128x64_S64x8192_S128x8192_1_0_0_1_n_n.contr.Idx) :
    (dot_S128x64_S64x8192_S128x8192_1_0_0_1_n_n.rhsIdx i q 0).val = (q ⟨0, by decide⟩).val :=
  dot_S128x64_S64x8192_S128x8192_1_0_0_1_n_n.rhsIdx_val_of_single rfl i q
theorem rhs_prod_1 (i : S128x8192.Idx) (q : dot_S128x64_S64x8192_S128x8192_1_0_0_1_n_n.contr.Idx) :
    (dot_S128x64_S64x8192_S128x8192_1_0_0_1_n_n.rhsIdx i q 1).val = (i 1).val := by
  unfold DotDims.rhsIdx
  rw [dif_neg (show ¬(1 : Fin S64x8192.rank) ∈ dot_S128x64_S64x8192_S128x8192_1_0_0_1_n_n.rhsBatch by decide), dif_pos (show (1 : Fin S64x8192.rank) ∈ dot_S128x64_S64x8192_S128x8192_1_0_0_1_n_n.rhsNonContracting by decide)]
  rfl

/-- The product of a 128 × 64 block with a 64 × 8192 block, accumulated into zero, at entry `(r, j)`: the sum over the
    64 shared coordinates. -/
theorem prod_apply (a : FVec Ideal S128x64 .bf16) (b : FVec Ideal S64x8192 .bf16) (r : Fin 128) (j : Fin 8192) :
    matmul dot_S128x64_S64x8192_S128x8192_1_0_0_1_n_n none a b (constant (F := Ideal) S128x8192 .f32 0x00000000#32) (ix2 r j)
      = ∑ d : Fin 64, a (ix2 r d) * b (ix2 d j) := by
  simp only [matmul]
  rw [Ideal.matmul_constant_zero_apply, ← Equiv.sum_comp (ValueIdx.contrEquiv1 dot_S128x64_S64x8192_S128x8192_1_0_0_1_n_n 64 rfl rfl).symm]
  refine Finset.sum_congr rfl fun k _ => ?_
  have hk := ValueIdx.contrEquiv1_symm_val dot_S128x64_S64x8192_S128x8192_1_0_0_1_n_n 64 rfl rfl k
  have el : dot_S128x64_S64x8192_S128x8192_1_0_0_1_n_n.lhsIdx (ix2 r j) ((ValueIdx.contrEquiv1 dot_S128x64_S64x8192_S128x8192_1_0_0_1_n_n 64 rfl rfl).symm k) = ix2 r k := funext fun x => Fin.ext (by
    match x with
    | ⟨0, _⟩ => exact lhs_prod_0 _ _
    | ⟨1, _⟩ => exact (lhs_prod_1 _ _).trans hk)
  have er : dot_S128x64_S64x8192_S128x8192_1_0_0_1_n_n.rhsIdx (ix2 r j) ((ValueIdx.contrEquiv1 dot_S128x64_S64x8192_S128x8192_1_0_0_1_n_n 64 rfl rfl).symm k) = ix2 k j := funext fun x => Fin.ext (by
    match x with
    | ⟨0, _⟩ => exact (rhs_prod_0 _ _).trans hk
    | ⟨1, _⟩ => exact rhs_prod_1 _ _)
  rw [el, er]

/-- Against the transposed rows the product is the inner product of row `r` of the one block and row `j` of the other. -/
theorem inner_apply (a : FVec Ideal S128x64 .bf16) (b : FVec Ideal S8192x64 .bf16) (h : S8192x64.Transposes [1, 0] S64x8192)
    (r : Fin 128) (j : Fin 8192) :
    matmul dot_S128x64_S64x8192_S128x8192_1_0_0_1_n_n none a (transpose S64x8192 [1, 0] b h)
        (constant (F := Ideal) S128x8192 .f32 0x00000000#32) (ix2 r j)
      = ∑ d : Fin 64, a (ix2 r d) * b (ix2 j d) := by
  refine (prod_apply a _ r j).trans (Finset.sum_congr rfl fun d _ => ?_)
  exact congrArg (a (ix2 r d) * ·) (transpose_ix2_apply b h d j)

/-! ## The squared norms of the 8192 rows: a row of ones times the squared rows -/

theorem lhs_ones_0 (i : S1x8192.Idx) (q : dot_S1x64_S8192x64_S1x8192_1_1_0_0_n_n.contr.Idx) :
    (dot_S1x64_S8192x64_S1x8192_1_1_0_0_n_n.lhsIdx i q 0).val = (i 0).val := by
  unfold DotDims.lhsIdx
  rw [dif_neg (show ¬(0 : Fin S1x64.rank) ∈ dot_S1x64_S8192x64_S1x8192_1_1_0_0_n_n.lhsBatch by decide), dif_pos (show (0 : Fin S1x64.rank) ∈ dot_S1x64_S8192x64_S1x8192_1_1_0_0_n_n.lhsNonContracting by decide)]
  rfl
theorem lhs_ones_1 (i : S1x8192.Idx) (q : dot_S1x64_S8192x64_S1x8192_1_1_0_0_n_n.contr.Idx) :
    (dot_S1x64_S8192x64_S1x8192_1_1_0_0_n_n.lhsIdx i q 1).val = (q ⟨0, by decide⟩).val :=
  dot_S1x64_S8192x64_S1x8192_1_1_0_0_n_n.lhsIdx_val_of_single rfl i q
theorem rhs_ones_0 (i : S1x8192.Idx) (q : dot_S1x64_S8192x64_S1x8192_1_1_0_0_n_n.contr.Idx) :
    (dot_S1x64_S8192x64_S1x8192_1_1_0_0_n_n.rhsIdx i q 0).val = (i 1).val := by
  unfold DotDims.rhsIdx
  rw [dif_neg (show ¬(0 : Fin S8192x64.rank) ∈ dot_S1x64_S8192x64_S1x8192_1_1_0_0_n_n.rhsBatch by decide), dif_pos (show (0 : Fin S8192x64.rank) ∈ dot_S1x64_S8192x64_S1x8192_1_1_0_0_n_n.rhsNonContracting by decide)]
  rfl
theorem rhs_ones_1 (i : S1x8192.Idx) (q : dot_S1x64_S8192x64_S1x8192_1_1_0_0_n_n.contr.Idx) :
    (dot_S1x64_S8192x64_S1x8192_1_1_0_0_n_n.rhsIdx i q 1).val = (q ⟨0, by decide⟩).val :=
  dot_S1x64_S8192x64_S1x8192_1_1_0_0_n_n.rhsIdx_val_of_single rfl i q

/-- The product of a 1 × 64 row with an 8192 × 64 block along the second axis of both, accumulated into zero, at entry
    `(0, j)`: the sum over the 64 shared coordinates of the row's entry times the block's entry in row `j`. -/
theorem rowProd_apply (a : FVec Ideal S1x64 .bf16) (b : FVec Ideal S8192x64 .bf16) (z : Fin 1) (j : Fin 8192) :
    matmul dot_S1x64_S8192x64_S1x8192_1_1_0_0_n_n none a b (constant (F := Ideal) S1x8192 .f32 0x00000000#32) (ix2 z j)
      = ∑ d : Fin 64, a (ix2 z d) * b (ix2 j d) := by
  simp only [matmul]
  rw [Ideal.matmul_constant_zero_apply, ← Equiv.sum_comp (ValueIdx.contrEquiv1 dot_S1x64_S8192x64_S1x8192_1_1_0_0_n_n 64 rfl rfl).symm]
  refine Finset.sum_congr rfl fun k _ => ?_
  have hk := ValueIdx.contrEquiv1_symm_val dot_S1x64_S8192x64_S1x8192_1_1_0_0_n_n 64 rfl rfl k
  have el : dot_S1x64_S8192x64_S1x8192_1_1_0_0_n_n.lhsIdx (ix2 z j) ((ValueIdx.contrEquiv1 dot_S1x64_S8192x64_S1x8192_1_1_0_0_n_n 64 rfl rfl).symm k) = ix2 z k := funext fun x => Fin.ext (by
    match x with
    | ⟨0, _⟩ => exact lhs_ones_0 _ _
    | ⟨1, _⟩ => exact (lhs_ones_1 _ _).trans hk)
  have er : dot_S1x64_S8192x64_S1x8192_1_1_0_0_n_n.rhsIdx (ix2 z j) ((ValueIdx.contrEquiv1 dot_S1x64_S8192x64_S1x8192_1_1_0_0_n_n 64 rfl rfl).symm k) = ix2 j k := funext fun x => Fin.ext (by
    match x with
    | ⟨0, _⟩ => exact rhs_ones_0 _ _
    | ⟨1, _⟩ => exact (rhs_ones_1 _ _).trans hk)
  rw [el, er]

/-- The bf16 word `0x3F80` is the number one. -/
theorem ofBits_one_bf16 : Ideal.ofBits .bf16 0x3F80#16 = 1 := by
  simp [Ideal.ofBits, Ideal.ieee]
  rw [← EReal.coe_mul]
  norm_num

/-! ## The squared norms of the 128 rows: a lane sum kept as a column -/

/-- A vector of `a` entries cast to an `a × 1` column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a 128 × 64 block, kept as a 128 × 1 column, at `(r, 0)`: the sum of row `r`. -/
theorem laneSum_apply (v : FVec Ideal S128x64 .f32) (h : S128x64.Reduces [1] S128) (hc : S128.ShapeCasts S128x1)
    (hacc : (0x00000000#32 : BitVec 32) = 0x00000000#32) (r : Fin 128) (u : Fin 1) :
    shapeCast S128x1 (multiReduction (F := Ideal) .add [1] S128 v 0x00000000#32 h (.inl rfl) hacc) hc (ix2 r u)
      = ∑ d : Fin 64, v (ix2 r d) := by
  refine (shapeCast_a_a1_apply _ hc r u).trans ?_
  refine (Ideal.multiReduction_add_single v 0x00000000#32 h (.inl rfl) hacc (ix1 r)).trans ?_
  refine Finset.sum_congr rfl fun d _ => ?_
  exact congrArg v (funext fun x => Fin.ext (by match x with | ⟨0, _⟩ => rfl | ⟨1, _⟩ => rfl))

/-! ## The block -/

/-- The exponential and the square root act entry by entry. -/
theorem exp_at {s : Shape} {φ : FTy} (v : FVec Ideal s φ) (i : s.Idx) : exp v i = Ideal.exp (v i) := rfl
theorem sqrt_at {s : Shape} {φ : FTy} (v : FVec Ideal s φ) (i : s.Idx) : sqrt v i = Ideal.sqrt (v i) := rfl

/-- The similarity block of 128 rows `x0` against the 8192 rows `x1`, at entry `(r, j)`. -/
theorem simBlock_apply (x0 : Vec Ideal S128x64 .f32) (x1 : Vec Ideal S8192x64 .f32) (r : Fin 128) (j : Fin 8192) :
    k0_pay2 (F := Ideal) x0 x1 (ix2 r j)
      = Ideal.exp (Ideal.div (Ideal.div (∑ d : Fin 64, x0 (ix2 r d) * x1 (ix2 j d))
          (Ideal.sqrt (∑ d : Fin 64, x0 (ix2 r d) * x0 (ix2 r d)) * Ideal.sqrt (∑ d : Fin 64, x1 (ix2 j d) * x1 (ix2 j d)))) tau) := by
  unfold k0_pay2
  simp only [exp_at, divf_apply, mulf_apply, broadcast_apply]
  rw [broadcastTo_a1_ab_apply, broadcastTo_1b_ab_apply]
  simp only [sqrt_at]
  rw [inner_apply, rowProd_apply, laneSum_apply]
  simp only [truncf_apply, mulf_apply, broadcast_apply]
  have one : (FloatOps.ofBits FTy.bf16 0x3F80#16 : Idealize.ShloMosaic.Ideal FTy.bf16) = 1 := ofBits_one_bf16
  simp only [one, one_mul]
  rfl

end Cert.KernelIdeal.SimBlock

end
-- ==== Proof.Stats.lean ====
/-
  The first launch: row sums and column sums of the similarity matrix. Grid point `t` holds rows `128·t … 128·t+127`
  of `x`; it writes that block of the row sums, and adds its 128 rows' contribution to the running column sums
  (reset to zero at the first point). After the last point the column array is the sum over all 8192 rows.

  The argument: each point's stores are read back as the payloads they hold; a payload at an entry is a sum of
  entries of the point's similarity block, which is 128 rows of the similarity matrix; so the row block after point `t`
  is the row sums of its rows, and the column block after point `n`, by induction on `n`, the column sums over the rows
  of points `0 … n`. The row blocks tile the row-sum array; the column block is written back once, after point 63,
  when the sum runs over 64 · 128 = 8192 rows.
-/
import proofs.«143298_j80711025426432_1_alg».proof.Proof.Gen.KernelIdeal.Frame
import proofs.«143298_j80711025426432_1_alg».proof.Proof.SimBlock
import Idealize.ShloMosaic.PureOps.Ideal.Laws
import Idealize.ShloMosaic.Lib.Pipeline.Value
import Idealize.ShloMosaic.Lib.ValueLayout
import Idealize.ShloMosaic.Lib.ValueIdx
import Idealize.ShloMosaic.Lib.Tactic
import Mathlib.Logic.Equiv.Fin.Basic
import Mathlib.Data.Fintype.BigOperators

set_option maxRecDepth 16384

noncomputable section

namespace Cert.KernelIdeal.Stats

open Cert.KernelIdeal Cert.KernelIdeal.Gen
open Idealize.ShloMosaic Idealize.ShloMosaic.TcCoe Idealize.SL.Sem Idealize.ShloMosaic.ValueIdx
open Idealize.ShloMosaic.Pipeline (Dat Cfg Window)
open Contrastive

/-! ## What each point's stores leave, as payloads -/

section Pieces
variable {F : FTy → Type} [FloatOps F]

theorem hz : (![0, 0] : Fin 2 → Nat) = fun _ => 0 := funext fun a => by fin_cases a <;> rfl

/-- At the first point the row-sum block is the row sums of the point's similarity block. -/
theorem out_A_2 (c : Dev nD) (i : grid0.Coords) (a1 : Memref sig .tc .vmem S128x64 .f32) (h1 : a1.IsWhole)
    (a2 : Memref sig .tc .vmem S8192x64 .f32) (h2 : a2.IsWhole) (a3 : Memref sig .tc .vmem S128x1 .f32) (h3 : a3.IsWhole)
    (a4 : Memref sig .tc .vmem S1x8192 .f32) (h4 : a4.IsWhole) (hc : cond0_0 i)
    (x0 : Vec F S128x64 .f32) (x1 : Vec F S8192x64 .f32) :
    out0_A_2 c i a1 h1 a2 h2 a3 h3 a4 h4 hc x0 x1 = k0_pay3 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S128x64) hz,
    View.ld_unit_zero (S := S8192x64) hz]

/-- At a later point too. -/
theorem out_B_2 (c : Dev nD) (i : grid0.Coords) (a1 : Memref sig .tc .vmem S128x64 .f32) (h1 : a1.IsWhole)
    (a2 : Memref sig .tc .vmem S8192x64 .f32) (h2 : a2.IsWhole) (a3 : Memref sig .tc .vmem S128x1 .f32) (h3 : a3.IsWhole)
    (a4 : Memref sig .tc .vmem S1x8192 .f32) (h4 : a4.IsWhole) (hc : ¬cond0_0 i)
    (x0 : Vec F S128x64 .f32) (x1 : Vec F S8192x64 .f32) (xo : Vec F S1x8192 .f32) :
    out0_B_2 c i a1 h1 a2 h2 a3 h3 a4 h4 hc x0 x1 xo = k0_pay3 x0 x1 := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz]
  simp only [View.readAt_eq_ld, h1.read_unread, h2.read_unread, View.ld_unit_zero (S := S128x64) hz,
    View.ld_unit_zero (S := S8192x64) hz]

/-- At a later point the column block is what the point before left plus the column sums of the point's block. -/
theorem out_B_3 (c : Dev nD) (i : grid0.Coords) (a1 : Memref sig .tc .vmem S128x64 .f32) (h1 : a1.IsWhole)
    (a2 : Memref sig .tc .vmem S8192x64 .f32) (h2 : a2.IsWhole) (a3 : Memref sig .tc .vmem S128x1 .f32) (h3 : a3.IsWhole)
    (a4 : Memref sig .tc .vmem S1x8192 .f32) (h4 : a4.IsWhole) (hc : ¬cond0_0 i)
    (x0 : Vec F S128x64 .f32) (x1 : Vec F S8192x64 .f32) (xo : Vec F S1x8192 .f32) :
    out0_B_3 c i a1 h1 a2 h2 a3 h3 a4 h4 hc x0 x1 xo = k0_pay4 x0 x1 xo := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz]
  simp only [View.readAt_eq_ld, h1.read_unread, h2.read_unread, h4.read_unread, View.ld_unit_zero (S := S128x64) hz,
    View.ld_unit_zero (S := S8192x64) hz, View.ld_unit_zero (S := S1x8192) hz]

/-- At the first point the column block is the zero block plus the column sums of the point's block. -/
theorem out_A_3 (c : Dev nD) (i : grid0.Coords) (a1 : Memref sig .tc .vmem S128x64 .f32) (h1 : a1.IsWhole)
    (a2 : Memref sig .tc .vmem S8192x64 .f32) (h2 : a2.IsWhole) (a3 : Memref sig .tc .vmem S128x1 .f32) (h3 : a3.IsWhole)
    (a4 : Memref sig .tc .vmem S1x8192 .f32) (h4 : a4.IsWhole) (hc : cond0_0 i)
    (x0 : Vec F S128x64 .f32) (x1 : Vec F S8192x64 .f32) :
    out0_A_3 c i a1 h1 a2 h2 a3 h3 a4 h4 hc x0 x1 = k0_pay4 x0 x1 k0_pay1 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x8192) hz]
  simp only [View.readAt_eq_ld, h1.read_unread, h2.read_unread, View.ld_unit_zero (S := S128x64) hz,
    View.ld_unit_zero (S := S8192x64) hz, View.readCov_unit_zero (S := S1x8192) _ hz]

end Pieces

/-! ## The payloads at an entry, over the extended reals -/

section Payloads

/-- The zero block is zero everywhere. -/
theorem pay1_apply (j : Fin 8192) : k0_pay1 (F := Ideal) (ix2 (0 : Fin 1) j) = 0 := by
  unfold k0_pay1
  exact Ideal.ofBits_zero_f32

/-- The row-sum payload at row `r`: the sum of the block's row. -/
theorem pay3_apply (x0 : Vec Ideal S128x64 .f32) (x1 : Vec Ideal S8192x64 .f32) (r : Fin 128) :
    k0_pay3 (F := Ideal) x0 x1 (ix2 r (0 : Fin 1)) = ∑ j : Fin 8192, k0_pay2 (F := Ideal) x0 x1 (ix2 r j) := by
  unfold k0_pay3
  refine (shapeCast_apply _ shapeCasts_S128_S128x1 (ix2 r (0 : Fin 1)) (ix1 r) ?_).trans ?_
  · rw [Shape.rowMajor_val_two, Shape.rowMajor_val_one]
    show r.val = r.val * 1 + 0
    omega
  refine (Ideal.multiReduction_add_single _ _ reduces_S128x8192_S128 (.inl rfl) rfl (ix1 r)).trans ?_
  refine Finset.sum_congr rfl fun j _ => congrArg _ ?_
  funext a
  match a with
  | ⟨0, _⟩ => rfl
  | ⟨1, _⟩ => rfl

/-- The column payload at column `j`: what was there plus the sum of the block's column. -/
theorem pay4_apply (x0 : Vec Ideal S128x64 .f32) (x1 : Vec Ideal S8192x64 .f32) (acc : Vec Ideal S1x8192 .f32) (j : Fin 8192) :
    k0_pay4 (F := Ideal) x0 x1 acc (ix2 (0 : Fin 1) j)
      = acc (ix2 (0 : Fin 1) j) + ∑ r : Fin 128, k0_pay2 (F := Ideal) x0 x1 (ix2 r j) := by
  unfold k0_pay4
  refine (addf_apply _ _ (ix2 (0 : Fin 1) j)).trans ?_
  refine congrArg₂ (· + ·) (congrFun (shapeCast_self acc _) _) ?_
  refine (shapeCast_a_1a_apply _ shapeCasts_S8192_S1x8192 (0 : Fin 1) j).trans ?_
  refine (Ideal.multiReduction_add_single _ _ reduces_S128x8192_S8192 (.inl rfl) rfl (ix1 j)).trans ?_
  refine Finset.sum_congr rfl fun r _ => congrArg _ ?_
  funext a
  match a with
  | ⟨0, _⟩ => rfl
  | ⟨1, _⟩ => rfl

end Payloads

variable (V : (c : Dev nD) → (b : Ref sig .tc) → Buf (Elt Ideal) ((c : Thread nD τ).loc b))

/-! ## The blocks a point holds -/

section Blocks

/-- The two embedding matrices as the launch finds them. -/
abbrev xarr (c : Dev nD) : Emb := V c main_arg0
abbrev yarr (c : Dev nD) : Emb := V c main_arg1
/-- The block of 128 rows of `x` point `t` holds, and the whole of `y`. -/
abbrev xblk (c : Dev nD) (t : Fin cfg0.N) : Vec Ideal S128x64 .f32 := iblk0 (F := Ideal) V c 0 t
abbrev yblk (c : Dev nD) (t : Fin cfg0.N) : Vec Ideal S8192x64 .f32 := iblk0 (F := Ideal) V c 1 t

theorem lt64 (t : Fin cfg0.N) : t.val < 64 := lt_of_lt_of_eq t.isLt (show cfg0.N = 64 from N_0)

/-- Row `r` of point `t`'s block is row `128·t + r` of the matrix. -/
abbrev rowOf (t : Fin cfg0.N) (r : Fin 128) : Fin 8192 := ⟨128 * t.val + r.val, by have := lt64 t; have := r.isLt; omega⟩

theorem xblk_apply (c : Dev nD) (t : Fin cfg0.N) (r : Fin 128) (d : Fin 64) :
    xblk V c t (ix2 r d) = xarr V c (ix2 (rowOf t r) d) := by
  have hi : win0_0.index t 0 = t.val ∧ win0_0.index t 1 = 0 :=
    (by decide +kernel : ∀ t : Fin grid0.N, win0_0.index t 0 = t.val ∧ win0_0.index t 1 = 0) t
  show V c main_arg0 (((cfg0.win 0).blk t).view.emb (ix2 r d)) = V c main_arg0 (ix2 (rowOf t r) d)
  refine congrArg (V c main_arg0) ?_
  funext a
  apply Fin.ext
  match a with
  | ⟨0, _⟩ =>
    show win0_0.index t 0 * 128 + 1 * r.val = 128 * t.val + r.val
    rw [hi.1]; omega
  | ⟨1, _⟩ =>
    show win0_0.index t 1 * 64 + 1 * d.val = d.val
    rw [hi.2]; omega

theorem yblk_apply (c : Dev nD) (t : Fin cfg0.N) (j : Fin 8192) (d : Fin 64) :
    yblk V c t (ix2 j d) = yarr V c (ix2 j d) := by
  have hi : win0_1.index t 0 = 0 ∧ win0_1.index t 1 = 0 :=
    (by decide +kernel : ∀ t : Fin grid0.N, win0_1.index t 0 = 0 ∧ win0_1.index t 1 = 0) t
  show V c main_arg1 (((cfg0.win 1).blk t).view.emb (ix2 j d)) = V c main_arg1 (ix2 j d)
  refine congrArg (V c main_arg1) ?_
  funext a
  apply Fin.ext
  match a with
  | ⟨0, _⟩ =>
    show win0_1.index t 0 * 8192 + 1 * j.val = j.val
    rw [hi.1]; omega
  | ⟨1, _⟩ =>
    show win0_1.index t 1 * 64 + 1 * d.val = d.val
    rw [hi.2]; omega

end Blocks

/-! ## The blocks after each point -/

section Invariant

/-- A point's similarity block is the corresponding 128 rows of the similarity matrix. -/
theorem sim_blk (c : Dev nD) (t : Fin cfg0.N) (r : Fin 128) (j : Fin 8192) :
    k0_pay2 (F := Ideal) (xblk V c t) (yblk V c t) (ix2 r j) = sim (xarr V c) (yarr V c) (rowOf t r) j := by
  refine (SimBlock.simBlock_apply (xblk V c t) (yblk V c t) r j).trans ?_
  unfold sim dot nrm
  simp only [xblk_apply V c t, yblk_apply V c t]

/-- After point `t` the row-sum block holds the row sums of the point's 128 rows. -/
theorem rows_at (c : Dev nD) (t : Fin cfg0.N) (r : Fin 128) :
    (outsAt0 (F := Ideal) V c t.val t.isLt).1 (ix2 r (0 : Fin 1)) = rowSum (xarr V c) (yarr V c) (rowOf t r) := by
  have key : k0_pay3 (F := Ideal) (xblk V c t) (yblk V c t) (ix2 r (0 : Fin 1)) = rowSum (xarr V c) (yarr V c) (rowOf t r) := by
    refine (pay3_apply (xblk V c t) (yblk V c t) r).trans ?_
    unfold rowSum
    exact Finset.sum_congr rfl fun j _ => sim_blk V c t r j
  by_cases h : t.val % 64 = 0
  · rw [outsAt0_A V c t h]
    dsimp only
    exact (congrFun (out_A_2 (F := Ideal) c (grid0.coords t) (ms0_0 t) (hs0_0 t) (ms0_1 t) (hs0_1 t) (ms0_2 t) (hs0_2 t)
      (ms0_3 t) (hs0_3 t) ((hcond0_0 t).mpr h) (xblk V c t) (yblk V c t)) (ix2 r (0 : Fin 1))).trans key
  · rw [outsAt0_B V c t h]
    dsimp only
    exact (congrFun (out_B_2 (F := Ideal) c (grid0.coords t) (ms0_0 t) (hs0_0 t) (ms0_1 t) (hs0_1 t) (ms0_2 t) (hs0_2 t)
      (ms0_3 t) (hs0_3 t) (fun h' => h ((hcond0_0 t).mp h')) (xblk V c t) (yblk V c t)
      (outsAt0 (F := Ideal) V c (t.val - 1) (Nat.lt_of_le_of_lt (Nat.sub_le _ _) t.isLt)).2) (ix2 r (0 : Fin 1))).trans key

/-- The column sums of a point's 128 rows. -/
abbrev blkCol (c : Dev nD) (t : Fin cfg0.N) (j : Fin 8192) : EReal :=
  ∑ r : Fin 128, sim (xarr V c) (yarr V c) (rowOf t r) j

/-- The first point leaves its own rows' column sums … -/
theorem colA (c : Dev nD) (t : Fin cfg0.N) (h : t.val % 64 = 0) (j : Fin 8192) :
    (outsAt0 (F := Ideal) V c t.val t.isLt).2 (ix2 (0 : Fin 1) j) = blkCol V c t j := by
  rw [outsAt0_A V c t h]
  dsimp only
  refine (congrFun (out_A_3 (F := Ideal) c (grid0.coords t) (ms0_0 t) (hs0_0 t) (ms0_1 t) (hs0_1 t) (ms0_2 t) (hs0_2 t)
    (ms0_3 t) (hs0_3 t) ((hcond0_0 t).mpr h) (xblk V c t) (yblk V c t)) (ix2 (0 : Fin 1) j)).trans ?_
  refine (pay4_apply (xblk V c t) (yblk V c t) (k0_pay1 (F := Ideal)) j).trans ?_
  rw [pay1_apply, zero_add]
  exact Finset.sum_congr rfl fun r _ => sim_blk V c t r j

/-- … and every later point adds its rows' column sums to what the point before left. -/
theorem colB (c : Dev nD) (t : Fin cfg0.N) (h : ¬t.val % 64 = 0) (j : Fin 8192) :
    (outsAt0 (F := Ideal) V c t.val t.isLt).2 (ix2 (0 : Fin 1) j)
      = (outsAt0 (F := Ideal) V c (t.val - 1) (Nat.lt_of_le_of_lt (Nat.sub_le _ _) t.isLt)).2 (ix2 (0 : Fin 1) j)
        + blkCol V c t j := by
  rw [outsAt0_B V c t h]
  dsimp only
  refine (congrFun (out_B_3 (F := Ideal) c (grid0.coords t) (ms0_0 t) (hs0_0 t) (ms0_1 t) (hs0_1 t) (ms0_2 t) (hs0_2 t)
    (ms0_3 t) (hs0_3 t) (fun h' => h ((hcond0_0 t).mp h')) (xblk V c t) (yblk V c t)
    (outsAt0 (F := Ideal) V c (t.val - 1) (Nat.lt_of_le_of_lt (Nat.sub_le _ _) t.isLt)).2) (ix2 (0 : Fin 1) j)).trans ?_
  refine (pay4_apply (xblk V c t) (yblk V c t) _ j).trans ?_
  exact congrArg _ (Finset.sum_congr rfl fun r _ => sim_blk V c t r j)

/-- So after point `n` the column block holds the column sums over the rows of points `0 … n`. -/
theorem cols_at (c : Dev nD) (j : Fin 8192) : ∀ (n : ℕ) (hn : n < cfg0.N),
    (outsAt0 (F := Ideal) V c n hn).2 (ix2 (0 : Fin 1) j)
      = ∑ s : Fin (n + 1), blkCol V c ⟨s.val, lt_of_le_of_lt (Nat.le_of_lt_succ s.isLt) hn⟩ j
  | 0, hn => by
    rw [Fin.sum_univ_one]
    exact colA V c ⟨0, hn⟩ rfl j
  | n + 1, hn => by
    have hN : n + 1 < 64 := lt_of_lt_of_eq hn (show cfg0.N = 64 from N_0)
    have hB : ¬(⟨n + 1, hn⟩ : Fin cfg0.N).val % 64 = 0 := by dsimp only; omega
    rw [Fin.sum_univ_castSucc]
    refine (colB V c ⟨n + 1, hn⟩ hB j).trans ?_
    exact congrArg (· + _) (cols_at c j n (Nat.lt_of_succ_lt hn))

end Invariant

/-! ## From blocks to arrays -/

section Arrays

/-- A sum over 64 blocks of 128 consecutive rows is the sum over all 8192 rows. -/
theorem sum_blocks (f : Fin 8192 → EReal) :
    ∑ s : Fin 64, ∑ r : Fin 128, f ⟨128 * s.val + r.val, by have := s.isLt; have := r.isLt; omega⟩ = ∑ i : Fin 8192, f i := by
  have e := Equiv.sum_comp (finProdFinEquiv : Fin 64 × Fin 128 ≃ Fin (64 * 128)) (fun i => f ⟨i.val, i.isLt⟩)
  rw [← Fintype.sum_prod_type']
  refine (Finset.sum_congr rfl fun p _ => ?_).trans (e.trans ?_)
  · refine congrArg f (Fin.ext ?_)
    show 128 * p.1.val + p.2.val = p.2.val + 128 * p.1.val
    omega
  · rfl

/-- Window 2's block at point `t` is rows `128·t …` of the row-sum array; window 3's is the whole column-sum array. -/
theorem idx2 (t : Fin cfg0.N) : win0_2.index t 0 = t.val ∧ win0_2.index t 1 = 0 :=
  (by decide +kernel : ∀ t : Fin grid0.N, win0_2.index t 0 = t.val ∧ win0_2.index t 1 = 0) t
theorem idx3 (t : Fin cfg0.N) : win0_3.index t 0 = 0 ∧ win0_3.index t 1 = 0 :=
  (by decide +kernel : ∀ t : Fin grid0.N, win0_3.index t 0 = 0 ∧ win0_3.index t 1 = 0) t

/-- Membership in a point's block of either output, coordinate by coordinate. -/
theorem mem_blk2 (t : Fin cfg0.N) (i : S8192x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0_0).slice (win0_2.rect t)).set ↔ _
  rw [View.set_slice_whole, Rect.mem_set_unit]
  exact Iff.rfl
theorem mem_blk3 (t : Fin cfg0.N) (i : S1x8192.Idx) :
    i ∈ ((cfg0.win 3).blk t).view.set ↔ ∀ a : Fin 2, win0_3.index t a * S1x8192.size a ≤ (i a).val
      ∧ (i a).val < win0_3.index t a * S1x8192.size a + S1x8192.size a := by
  show i ∈ ((View.whole main_v0_1).slice (win0_3.rect t)).set ↔ _
  rw [View.set_slice_whole, Rect.mem_set_unit]
  exact Iff.rfl

/-- After point `t` the row-sum block, entry by entry, is the row-sum array read through the point's window. -/
theorem flushed2_at (c : Dev nD) (t : Fin cfg0.N) (r : Fin 128) (u : Fin 1) :
    (outsAt0 (F := Ideal) V c t.val t.isLt).1 (ix2 r u)
      = rowSumArr (xarr V c) (yarr V c) (((cfg0.win 2).blk t).view.emb (ix2 r u)) := by
  obtain rfl : u = 0 := Subsingleton.elim _ _
  rw [rows_at V c t r]
  unfold rowSumArr
  refine congrArg (rowSum (xarr V c) (yarr V c)) (Fin.ext ?_)
  show 128 * t.val + r.val = win0_2.index t 0 * 128 + 1 * r.val
  rw [(idx2 t).1]; omega

theorem flushed2_at' (c : Dev nD) (t : Fin cfg0.N) (y : S128x1.Idx) :
    (outsAt0 (F := Ideal) V c t.val t.isLt).1 y
      = rowSumArr (xarr V c) (yarr V c) (((cfg0.win 2).blk t).view.emb y) := by
  rw [eq_ix2 y]
  exact flushed2_at V c t (y 0) (y 1)

/-- What point `t` writes back to the row-sum array is its block of the row sums. -/
theorem flushed2_eq (c : Dev nD) (t : Fin cfg0.N) :
    (dat0 (F := Ideal) V c).flushed 2 t
      = ((cfg0.win 2).blk t).view.read (Elt Ideal) (rowSumArr (xarr V c) (yarr V c)) := by
  show (cfg0.win 2).cut (grid0.coords t) ((dat0 (F := Ideal) V c).after 2 t) = _
  rw [after0_2]
  funext y
  exact flushed2_at' V c t y

/-- Every row of the row-sum array lies in the block of the point that holds it. -/
theorem cover2 (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  have ht : (i 0).val / 128 < cfg0.N := by rw [show cfg0.N = 64 from N_0]; omega
  refine ⟨⟨(i 0).val / 128, ht⟩, flush0_2 _, (mem_blk2 ⟨(i 0).val / 128, ht⟩ i).mpr fun a => ?_⟩
  match a with
  | ⟨0, _⟩ =>
    show win0_2.index ⟨(i 0).val / 128, ht⟩ 0 * 128 ≤ (i 0).val ∧ (i 0).val < win0_2.index ⟨(i 0).val / 128, ht⟩ 0 * 128 + 128
    rw [(idx2 ⟨(i 0).val / 128, ht⟩).1]; dsimp only; omega
  | ⟨1, _⟩ =>
    show win0_2.index ⟨(i 0).val / 128, ht⟩ 1 * 1 ≤ (i 1).val ∧ (i 1).val < win0_2.index ⟨(i 0).val / 128, ht⟩ 1 * 1 + 1
    rw [(idx2 ⟨(i 0).val / 128, ht⟩).2]; omega

/-- After the last point the column block, entry by entry, is the column-sum array read through the window. -/
theorem flushed3_at (c : Dev nD) (t : Fin cfg0.N) (h63 : t.val = 63) (u : Fin 1) (j : Fin 8192) :
    (outsAt0 (F := Ideal) V c t.val t.isLt).2 (ix2 u j)
      = colSumArr (xarr V c) (yarr V c) (((cfg0.win 3).blk t).view.emb (ix2 u j)) := by
  obtain rfl : u = 0 := Subsingleton.elim _ _
  have hcol : ∀ (n : ℕ) (hn : n < cfg0.N), n = 63 →
      (outsAt0 (F := Ideal) V c n hn).2 (ix2 (0 : Fin 1) j) = colSum (xarr V c) (yarr V c) j := by
    intro n hn e
    subst e
    rw [cols_at V c j 63 hn]
    unfold colSum
    exact sum_blocks fun i => sim (xarr V c) (yarr V c) i j
  rw [hcol t.val t.isLt h63]
  unfold colSumArr
  refine congrArg (colSum (xarr V c) (yarr V c)) (Fin.ext ?_)
  show j.val = win0_3.index t 1 * 8192 + 1 * j.val
  rw [(idx3 t).2]; omega

theorem flushed3_at' (c : Dev nD) (t : Fin cfg0.N) (h63 : t.val = 63) (y : S1x8192.Idx) :
    (outsAt0 (F := Ideal) V c t.val t.isLt).2 y
      = colSumArr (xarr V c) (yarr V c) (((cfg0.win 3).blk t).view.emb y) := by
  rw [eq_ix2 y]
  exact flushed3_at V c t h63 (y 0) (y 1)

/-- The one write-back of the column block, after the last point, writes the column sums over all rows. -/
theorem flushed3_eq (c : Dev nD) (t : Fin cfg0.N) (hf : (cfg0.win 3).flush t = true) :
    (dat0 (F := Ideal) V c).flushed 3 t
      = ((cfg0.win 3).blk t).view.read (Elt Ideal) (colSumArr (xarr V c) (yarr V c)) := by
  have h63 : t.val = 63 := by have := (flush0_3 t).mp hf; have := lt64 t; omega
  show (cfg0.win 3).cut (grid0.coords t) ((dat0 (F := Ideal) V c).after 3 t) = _
  rw [after0_3]
  funext y
  exact flushed3_at' V c t h63 y

/-- The last point's block is the whole column-sum array. -/
theorem cover3 (i : S1x8192.Idx) :
    ∃ t : Fin cfg0.N, (cfg0.win 3).flush t = true ∧ i ∈ ((cfg0.win 3).blk t).view.set := by
  have h0 : (i 0).val < 1 := (i 0).isLt
  have h1 : (i 1).val < 8192 := (i 1).isLt
  have ht : 63 < cfg0.N := by rw [show cfg0.N = 64 from N_0]; omega
  refine ⟨⟨63, ht⟩, (flush0_3 _).mpr rfl, (mem_blk3 ⟨63, ht⟩ i).mpr fun a => ?_⟩
  match a with
  | ⟨0, _⟩ =>
    show win0_3.index ⟨63, ht⟩ 0 * 1 ≤ (i 0).val ∧ (i 0).val < win0_3.index ⟨63, ht⟩ 0 * 1 + 1
    rw [(idx3 ⟨63, ht⟩).1]; omega
  | ⟨1, _⟩ =>
    show win0_3.index ⟨63, ht⟩ 1 * 8192 ≤ (i 1).val ∧ (i 1).val < win0_3.index ⟨63, ht⟩ 1 * 8192 + 8192
    rw [(idx3 ⟨63, ht⟩).2]; omega

end Arrays

end Cert.KernelIdeal.Stats

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Contrastive
open Cert.KernelIdeal.Stats

variable (V : (c : Dev nD) → (b : Ref sig .tc) → Buf (Elt Ideal) ((c : Thread nD τ).loc b))

/-- After the first launch the row-sum array holds `∑ⱼ sim x y i j` at row `i`. -/
theorem stats_rows (c : Dev nD) :
    (dat0 (F := Ideal) V c).arrAt 2 cfg0.N = rowSumArr (V c main_arg0) (V c main_arg1) :=
  (dat0 (F := Ideal) V c).arrAt_eq_of_cover 2 (rowSumArr (xarr V c) (yarr V c)) (fun t _ => flushed2_eq V c t) cover2

/-- … and the column-sum array `∑ᵢ sim x y i j` at column `j`. -/
theorem stats_cols (c : Dev nD) :
    (dat0 (F := Ideal) V c).arrAt 3 cfg0.N = colSumArr (V c main_arg0) (V c main_arg1) :=
  (dat0 (F := Ideal) V c).arrAt_eq_of_cover 3 (colSumArr (xarr V c) (yarr V c)) (flushed3_eq V c) cover3

end Cert.KernelIdeal.RegionValue

end
-- ==== Proof.Masked.lean ====
/-
  The two masked launches. Each grid point holds 128 rows `x0` of its first matrix, all rows of the second, the
  matching 128 × 8192 block of weights and the 128 normalisers; it writes, for each of its rows, the weighted sum of the
  row's similarities divided by the normaliser plus `eps`. The two launches run the same body; the second is
  called with the matrices exchanged and the column sums as normalisers.

  The road: the stored column read at a row (a lane sum of the similarity block times the weights, over the normaliser
  plus `eps`); each input block as rows `128 t … 128 t + 127` of its array; hence what point `t` writes back is block `t`
  of the masked column; the 64 blocks cover the 8192 rows, so the output array is the masked column.
-/
import proofs.«143298_j80711025426432_1_alg».proof.Proof.Gen.KernelIdeal.Frame
import proofs.«143298_j80711025426432_1_alg».proof.Proof.SimBlock

set_option maxRecDepth 16384

noncomputable section

namespace Cert.KernelIdeal.Masked

open Cert.KernelIdeal Cert.KernelIdeal.Gen
open Idealize.ShloMosaic Idealize.ShloMosaic.TcCoe Idealize.SL.Sem Idealize.ShloMosaic.ValueIdx
open Idealize.ShloMosaic.Pipeline (Dat Cfg Window)
open Contrastive

/-! ## The body's stored value -/

/-- The origin of a rank-2 rectangle. -/
theorem origin2 : (![0, 0] : Fin 2 → Nat) = fun _ => 0 := funext fun a => by fin_cases a <;> rfl

/-- The body's stored value: the lane sum of the similarity block times the weights read as reals, as a column,
    over the normalisers plus the stabiliser. -/
theorem pay_tail (x0 : Vec Ideal S128x64 .f32) (x1 : Vec Ideal S8192x64 .f32) (x2 : Vec Ideal S128x8192 .i32) (x3 : Vec Ideal S128x1 .f32) :
    k1_pay1 (F := Ideal) x0 x1 x2 x3
      = divf (shapeCast S128x1 (multiReduction (F := Ideal) .add [1] S128 (mulf (k0_pay2 (F := Ideal) x0 x1) (sitofp .f32 x2)) 0x00000000#32 reduces_S128x8192_S128 (.inl rfl) rfl) shapeCasts_S128_S128x1)
          (addf (shapeCast S128x1 x3 shapeCasts_S128x1_S128x1) (broadcast S128x1 (Scalar.ofBits (F := Ideal) .f32 0x322BCC77#32))) := rfl

/-- The two masked launches run one body. -/
theorem pay2_eq_pay1 : @k2_pay1 Ideal _ = @k1_pay1 Ideal _ := rfl

/-- A vector of `a` entries cast to a column `[a, 1]` reads, at `(i, u)`, the entry `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a 128 × 8192 block at row `r` is the sum over the row's 8192 entries. -/
theorem laneSum_apply (src : FVec Ideal S128x8192 .f32) (r : Fin 128) :
    multiReduction (F := Ideal) .add [1] S128 src 0x00000000#32 reduces_S128x8192_S128 (.inl rfl) rfl (ix1 r)
      = ∑ j : Fin 8192, src (ix2 r j) := by
  refine (Ideal.multiReduction_add_single src 0x00000000#32 reduces_S128x8192_S128 (.inl rfl) rfl (ix1 r)).trans ?_
  refine Finset.sum_congr rfl fun j _ => congrArg src ?_
  funext a
  match a with
  | ⟨0, _⟩ => rfl
  | ⟨1, _⟩ => rfl

/-- The stored column at row `r`: the weighted sum of the row's similarities over the row's normaliser plus `eps`. -/
theorem pay_row (x0 : Vec Ideal S128x64 .f32) (x1 : Vec Ideal S8192x64 .f32) (x2 : Vec Ideal S128x8192 .i32) (x3 : Vec Ideal S128x1 .f32) (r : Fin 128) :
    k1_pay1 (F := Ideal) x0 x1 x2 x3 (ix2 r 0)
      = Ideal.div (∑ j : Fin 8192, k0_pay2 (F := Ideal) x0 x1 (ix2 r j) * (((x2 (ix2 r j)).toInt : ℝ) : EReal)) (x3 (ix2 r 0) + eps) := by
  rw [pay_tail, divf_apply, addf_apply, broadcast_apply, shapeCast_self, shapeCast_col_apply, laneSum_apply]
  rfl

/-- The one store of the body writes its whole staging block, so the block after the body is the stored value. -/
theorem out1_eq (x0 : Vec Ideal S128x64 .f32) (x1 : Vec Ideal S8192x64 .f32) (x2 : Vec Ideal S128x8192 .i32) (x3 : Vec Ideal S128x1 .f32) :
    out1_4 (F := Ideal) x0 x1 x2 x3 = k1_pay1 (F := Ideal) x0 x1 x2 x3 := by
  unfold out1_4
  rw [View.canon_unit_zero origin2]
  simp only [View.ld_unit_zero (S := S128x64) origin2, View.ld_unit_zero (S := S8192x64) origin2,
    View.ld_unit_zero (S := S128x8192) origin2, View.ld_unit_zero (S := S128x1) origin2]

/-- The same for the other launch, whose body is the same term. -/
theorem out2_eq (x0 : Vec Ideal S128x64 .f32) (x1 : Vec Ideal S8192x64 .f32) (x2 : Vec Ideal S128x8192 .i32) (x3 : Vec Ideal S128x1 .f32) :
    out2_4 (F := Ideal) x0 x1 x2 x3 = k1_pay1 (F := Ideal) x0 x1 x2 x3 := by
  unfold out2_4
  rw [View.canon_unit_zero origin2, pay2_eq_pay1]
  simp only [View.ld_unit_zero (S := S128x64) origin2, View.ld_unit_zero (S := S8192x64) origin2,
    View.ld_unit_zero (S := S128x8192) origin2, View.ld_unit_zero (S := S128x1) origin2]

/-- What a grid point holding rows `128 T … 128 T + 127` stores at its row `r` is the masked value of row `128 T + r`:
    the similarity block is `sim` of the rows it was computed from, the weights and the normaliser are the row's. -/
theorem block_value (x0 : Vec Ideal S128x64 .f32) (x1 : Vec Ideal S8192x64 .f32) (x2 : Vec Ideal S128x8192 .i32) (x3 : Vec Ideal S128x1 .f32)
    (X Y : Emb) (P : Wts) (C : Col) (T : ℕ) (hT : T < 64)
    (h0 : ∀ (r : Fin 128) (d : Fin 64), x0 (ix2 r d) = X (ix2 (⟨128 * T + r.val, by omega⟩ : Fin 8192) d))
    (h1 : x1 = Y)
    (h2 : ∀ (r : Fin 128) (j : Fin 8192), x2 (ix2 r j) = P (ix2 (⟨128 * T + r.val, by omega⟩ : Fin 8192) j))
    (h3 : ∀ (r : Fin 128), x3 (ix2 r 0) = C (ix2 (⟨128 * T + r.val, by omega⟩ : Fin 8192) 0))
    (r : Fin 128) :
    k1_pay1 (F := Ideal) x0 x1 x2 x3 (ix2 r 0) = maskedArr X Y P C (ix2 (⟨128 * T + r.val, by omega⟩ : Fin 8192) 0) := by
  rw [pay_row, h3 r]
  show _ = Ideal.div (∑ j : Fin 8192, sim X Y ⟨128 * T + r.val, by omega⟩ j * wt P ⟨128 * T + r.val, by omega⟩ j)
      (C (ix2 (⟨128 * T + r.val, by omega⟩ : Fin 8192) 0) + eps)
  refine congrArg (fun s => Ideal.div s _) (Finset.sum_congr rfl fun j _ => ?_)
  rw [SimBlock.simBlock_apply, h2 r j, h1]
  unfold sim dot nrm wt
  simp only [h0]

/-- The same at any index of the 128 × 1 block. -/
theorem block_value_at (x0 : Vec Ideal S128x64 .f32) (x1 : Vec Ideal S8192x64 .f32) (x2 : Vec Ideal S128x8192 .i32) (x3 : Vec Ideal S128x1 .f32)
    (X Y : Emb) (P : Wts) (C : Col) (T : ℕ) (hT : T < 64)
    (h0 : ∀ (r : Fin 128) (d : Fin 64), x0 (ix2 r d) = X (ix2 (⟨128 * T + r.val, by omega⟩ : Fin 8192) d))
    (h1 : x1 = Y)
    (h2 : ∀ (r : Fin 128) (j : Fin 8192), x2 (ix2 r j) = P (ix2 (⟨128 * T + r.val, by omega⟩ : Fin 8192) j))
    (h3 : ∀ (r : Fin 128), x3 (ix2 r 0) = C (ix2 (⟨128 * T + r.val, by omega⟩ : Fin 8192) 0))
    (y : S128x1.Idx) :
    k1_pay1 (F := Ideal) x0 x1 x2 x3 y
      = maskedArr X Y P C (ix2 (⟨128 * T + (y 0).val, by have := idx2_lt0 y; omega⟩ : Fin 8192) 0) := by
  obtain ⟨r, u, rfl⟩ : ∃ (r : Fin 128) (u : Fin 1), y = ix2 r u := ⟨y 0, y 1, eq_ix2 y⟩
  obtain rfl : u = 0 := Subsingleton.elim _ _
  exact block_value x0 x1 x2 x3 X Y P C T hT h0 h1 h2 h3 r

/-! ## From blocks to the array -/

variable (V : (c : Dev nD) → (b : Ref sig .tc) → Buf (Elt Ideal) ((c : Thread nD τ).loc b))

/-! ## Launch 1: rows of `main_arg0` against all of `main_arg1`, normalisers from `main_v0_0` -/

/-- The windows' index maps over the grid: the row-blocked windows sit at block `t`, the whole-matrix window at block 0. -/
theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The four input blocks of grid point `t`, at their literal types. -/
abbrev xblk1 (c : Dev nD) (t : Fin cfg1.N) : Vec Ideal S128x64 .f32 := iblk1 V c 0 t
abbrev yblk1 (c : Dev nD) (t : Fin cfg1.N) : Vec Ideal S8192x64 .f32 := iblk1 V c 1 t
abbrev pblk1 (c : Dev nD) (t : Fin cfg1.N) : Vec Ideal S128x8192 .i32 := iblk1 V c 2 t
abbrev cblk1 (c : Dev nD) (t : Fin cfg1.N) : Vec Ideal S128x1 .f32 := iblk1 V c 3 t

/-- Block `t` of the first matrix is its rows `128 t … 128 t + 127`. -/
theorem xblk1_apply (c : Dev nD) (t : Fin cfg1.N) (ht : t.val < 64) (r : Fin 128) (d : Fin 64) :
    xblk1 V c t (ix2 r d) = (V c main_arg0 : Emb) (ix2 (⟨128 * t.val + r.val, by omega⟩ : Fin 8192) d) := by
  obtain ⟨e0, e1, -⟩ := idx1_facts t
  show V c main_arg0 (((cfg1.win 0).blk t).view.emb (ix2 r d)) = V c main_arg0 _
  refine congrArg _ (funext fun a => Fin.ext ?_)
  match a with
  | ⟨0, _⟩ => show win1_0.index t (0 : Fin 2) * 128 + 1 * r.val = 128 * t.val + r.val; omega
  | ⟨1, _⟩ => show win1_0.index t (1 : Fin 2) * 64 + 1 * d.val = d.val; omega

/-- The second matrix is staged whole at every point. -/
theorem yblk1_eq (c : Dev nD) (t : Fin cfg1.N) : yblk1 V c t = (V c main_arg1 : Emb) := by
  obtain ⟨-, -, e0, e1, -⟩ := idx1_facts t
  funext y
  show V c main_arg1 (((cfg1.win 1).blk t).view.emb y) = V c main_arg1 y
  refine congrArg _ (funext fun a => Fin.ext ?_)
  match a with
  | ⟨0, _⟩ => show win1_1.index t (0 : Fin 2) * 8192 + 1 * (y 0).val = (y 0).val; omega
  | ⟨1, _⟩ => show win1_1.index t (1 : Fin 2) * 64 + 1 * (y 1).val = (y 1).val; omega

/-- Block `t` of the weights is their rows `128 t … 128 t + 127`, all columns. -/
theorem pblk1_apply (c : Dev nD) (t : Fin cfg1.N) (ht : t.val < 64) (r : Fin 128) (j : Fin 8192) :
    pblk1 V c t (ix2 r j) = (V c main_arg2 : Wts) (ix2 (⟨128 * t.val + r.val, by omega⟩ : Fin 8192) j) := by
  obtain ⟨-, -, -, -, e0, e1, -⟩ := idx1_facts t
  show V c main_arg2 (((cfg1.win 2).blk t).view.emb (ix2 r j)) = V c main_arg2 _
  refine congrArg _ (funext fun a => Fin.ext ?_)
  match a with
  | ⟨0, _⟩ => show win1_2.index t (0 : Fin 2) * 128 + 1 * r.val = 128 * t.val + r.val; omega
  | ⟨1, _⟩ => show win1_2.index t (1 : Fin 2) * 8192 + 1 * j.val = j.val; omega

/-- Block `t` of the normalisers is their entries `128 t … 128 t + 127`. -/
theorem cblk1_apply (c : Dev nD) (t : Fin cfg1.N) (ht : t.val < 64) (r : Fin 128) :
    cblk1 V c t (ix2 r 0) = (V c main_v0_0 : Col) (ix2 (⟨128 * t.val + r.val, by omega⟩ : Fin 8192) 0) := by
  obtain ⟨-, -, -, -, -, -, e0, e1, -⟩ := idx1_facts t
  show V c main_v0_0 (((cfg1.win 3).blk t).view.emb (ix2 r 0)) = V c main_v0_0 _
  refine congrArg _ (funext fun a => Fin.ext ?_)
  match a with
  | ⟨0, _⟩ => show win1_3.index t (0 : Fin 2) * 128 + 1 * r.val = 128 * t.val + r.val; omega
  | ⟨1, _⟩ => show win1_3.index t (1 : Fin 2) * 1 + 1 * (0 : Fin 1).val = 0; omega

/-- What point `t` writes back is block `t` of the masked column. -/
theorem flushed1_eq (c : Dev nD) (t : Fin cfg1.N) :
    (dat1 (F := Ideal) V c).flushed 4 t
      = ((cfg1.win 4).blk t).view.read (Elt Ideal) (maskedArr (V c main_arg0) (V c main_arg1) (V c main_arg2) (V c main_v0_0)) := by
  have hN : cfg1.N = 64 := N_1
  have ht : t.val < 64 := lt_of_lt_of_eq t.isLt hN
  obtain ⟨-, -, -, -, -, -, -, -, e0, e1⟩ := idx1_facts t
  show (cfg1.win 4).cut (grid1.coords t) ((dat1 (F := Ideal) V c).after 4 t) = _
  rw [after1_4]
  funext y
  show out1_4 (F := Ideal) (xblk1 V c t) (yblk1 V c t) (pblk1 V c t) (cblk1 V c t) y
    = maskedArr (V c main_arg0) (V c main_arg1) (V c main_arg2) (V c main_v0_0) (((cfg1.win 4).blk t).view.emb y)
  rw [out1_eq (xblk1 V c t) (yblk1 V c t) (pblk1 V c t) (cblk1 V c t)]
  refine (block_value_at (xblk1 V c t) (yblk1 V c t) (pblk1 V c t) (cblk1 V c t)
    (V c main_arg0) (V c main_arg1) (V c main_arg2) (V c main_v0_0) t.val ht
    (xblk1_apply V c t ht) (yblk1_eq V c t) (pblk1_apply V c t ht) (cblk1_apply V c t ht) y).trans ?_
  refine congrArg (maskedArr (V c main_arg0) (V c main_arg1) (V c main_arg2) (V c main_v0_0)) (funext fun a => Fin.ext ?_)
  match a with
  | ⟨0, _⟩ => show 128 * t.val + (y 0).val = win1_4.index t (0 : Fin 2) * 128 + 1 * (y 0).val; omega
  | ⟨1, _⟩ => show 0 = win1_4.index t (1 : Fin 2) * 1 + 1 * (y 1).val; have : (y 1).val < 1 := (y 1).isLt; omega

/-- An index of the output column is in point `t`'s block iff each coordinate is in the block's range on its axis. -/
theorem mem_blk1 (t : Fin cfg1.N) (i : S8192x1.Idx) :
    i ∈ ((cfg1.win 4).blk t).view.set ↔ ∀ a : Fin 2, win1_4.index t a * S128x1.size a ≤ (i a).val ∧ (i a).val < win1_4.index t a * S128x1.size a + S128x1.size a := by
  show i ∈ ((View.whole main_v2).slice (win1_4.rect t)).set ↔ _
  rw [View.set_slice_whole, Rect.mem_set_unit]
  exact Iff.rfl

/-- Row `i` of the output column is written by point `i / 128`. -/
theorem cover1 (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 64 := N_1
  have hlt : (i 0).val / 128 < cfg1.N := by rw [hN]; omega
  obtain ⟨-, -, -, -, -, -, -, -, e0, e1⟩ := idx1_facts ⟨(i 0).val / 128, hlt⟩
  refine ⟨⟨(i 0).val / 128, hlt⟩, flush1_4 _, ?_⟩
  rw [mem_blk1]
  intro a
  match a with
  | ⟨0, _⟩ =>
    show win1_4.index ⟨(i 0).val / 128, hlt⟩ (0 : Fin 2) * 128 ≤ (i 0).val ∧ (i 0).val < win1_4.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win1_4.index ⟨(i 0).val / 128, hlt⟩ (1 : Fin 2) * 1 ≤ (i 1).val ∧ (i 1).val < win1_4.index ⟨(i 0).val / 128, hlt⟩ (1 : Fin 2) * 1 + 1
    rw [e1]; omega

/-! ## Launch 2: rows of `main_arg1` against all of `main_arg0`, normalisers from `main_v1` -/

/-- The windows' index maps over the grid: the row-blocked windows sit at block `t`, the whole-matrix window at block 0. -/
theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The four input blocks of grid point `t`, at their literal types. -/
abbrev xblk2 (c : Dev nD) (t : Fin cfg2.N) : Vec Ideal S128x64 .f32 := iblk2 V c 0 t
abbrev yblk2 (c : Dev nD) (t : Fin cfg2.N) : Vec Ideal S8192x64 .f32 := iblk2 V c 1 t
abbrev pblk2 (c : Dev nD) (t : Fin cfg2.N) : Vec Ideal S128x8192 .i32 := iblk2 V c 2 t
abbrev cblk2 (c : Dev nD) (t : Fin cfg2.N) : Vec Ideal S128x1 .f32 := iblk2 V c 3 t

/-- Block `t` of the first matrix is its rows `128 t … 128 t + 127`. -/
theorem xblk2_apply (c : Dev nD) (t : Fin cfg2.N) (ht : t.val < 64) (r : Fin 128) (d : Fin 64) :
    xblk2 V c t (ix2 r d) = (V c main_arg1 : Emb) (ix2 (⟨128 * t.val + r.val, by omega⟩ : Fin 8192) d) := by
  obtain ⟨e0, e1, -⟩ := idx2_facts t
  show V c main_arg1 (((cfg2.win 0).blk t).view.emb (ix2 r d)) = V c main_arg1 _
  refine congrArg _ (funext fun a => Fin.ext ?_)
  match a with
  | ⟨0, _⟩ => show win2_0.index t (0 : Fin 2) * 128 + 1 * r.val = 128 * t.val + r.val; omega
  | ⟨1, _⟩ => show win2_0.index t (1 : Fin 2) * 64 + 1 * d.val = d.val; omega

/-- The second matrix is staged whole at every point. -/
theorem yblk2_eq (c : Dev nD) (t : Fin cfg2.N) : yblk2 V c t = (V c main_arg0 : Emb) := by
  obtain ⟨-, -, e0, e1, -⟩ := idx2_facts t
  funext y
  show V c main_arg0 (((cfg2.win 1).blk t).view.emb y) = V c main_arg0 y
  refine congrArg _ (funext fun a => Fin.ext ?_)
  match a with
  | ⟨0, _⟩ => show win2_1.index t (0 : Fin 2) * 8192 + 1 * (y 0).val = (y 0).val; omega
  | ⟨1, _⟩ => show win2_1.index t (1 : Fin 2) * 64 + 1 * (y 1).val = (y 1).val; omega

/-- Block `t` of the weights is their rows `128 t … 128 t + 127`, all columns. -/
theorem pblk2_apply (c : Dev nD) (t : Fin cfg2.N) (ht : t.val < 64) (r : Fin 128) (j : Fin 8192) :
    pblk2 V c t (ix2 r j) = (V c main_arg2 : Wts) (ix2 (⟨128 * t.val + r.val, by omega⟩ : Fin 8192) j) := by
  obtain ⟨-, -, -, -, e0, e1, -⟩ := idx2_facts t
  show V c main_arg2 (((cfg2.win 2).blk t).view.emb (ix2 r j)) = V c main_arg2 _
  refine congrArg _ (funext fun a => Fin.ext ?_)
  match a with
  | ⟨0, _⟩ => show win2_2.index t (0 : Fin 2) * 128 + 1 * r.val = 128 * t.val + r.val; omega
  | ⟨1, _⟩ => show win2_2.index t (1 : Fin 2) * 8192 + 1 * j.val = j.val; omega

/-- Block `t` of the normalisers is their entries `128 t … 128 t + 127`. -/
theorem cblk2_apply (c : Dev nD) (t : Fin cfg2.N) (ht : t.val < 64) (r : Fin 128) :
    cblk2 V c t (ix2 r 0) = (V c main_v1 : Col) (ix2 (⟨128 * t.val + r.val, by omega⟩ : Fin 8192) 0) := by
  obtain ⟨-, -, -, -, -, -, e0, e1, -⟩ := idx2_facts t
  show V c main_v1 (((cfg2.win 3).blk t).view.emb (ix2 r 0)) = V c main_v1 _
  refine congrArg _ (funext fun a => Fin.ext ?_)
  match a with
  | ⟨0, _⟩ => show win2_3.index t (0 : Fin 2) * 128 + 1 * r.val = 128 * t.val + r.val; omega
  | ⟨1, _⟩ => show win2_3.index t (1 : Fin 2) * 1 + 1 * (0 : Fin 1).val = 0; omega

/-- What point `t` writes back is block `t` of the masked column. -/
theorem flushed2_eq (c : Dev nD) (t : Fin cfg2.N) :
    (dat2 (F := Ideal) V c).flushed 4 t
      = ((cfg2.win 4).blk t).view.read (Elt Ideal) (maskedArr (V c main_arg1) (V c main_arg0) (V c main_arg2) (V c main_v1)) := by
  have hN : cfg2.N = 64 := N_2
  have ht : t.val < 64 := lt_of_lt_of_eq t.isLt hN
  obtain ⟨-, -, -, -, -, -, -, -, e0, e1⟩ := idx2_facts t
  show (cfg2.win 4).cut (grid2.coords t) ((dat2 (F := Ideal) V c).after 4 t) = _
  rw [after2_4]
  funext y
  show out2_4 (F := Ideal) (xblk2 V c t) (yblk2 V c t) (pblk2 V c t) (cblk2 V c t) y
    = maskedArr (V c main_arg1) (V c main_arg0) (V c main_arg2) (V c main_v1) (((cfg2.win 4).blk t).view.emb y)
  rw [out2_eq (xblk2 V c t) (yblk2 V c t) (pblk2 V c t) (cblk2 V c t)]
  refine (block_value_at (xblk2 V c t) (yblk2 V c t) (pblk2 V c t) (cblk2 V c t)
    (V c main_arg1) (V c main_arg0) (V c main_arg2) (V c main_v1) t.val ht
    (xblk2_apply V c t ht) (yblk2_eq V c t) (pblk2_apply V c t ht) (cblk2_apply V c t ht) y).trans ?_
  refine congrArg (maskedArr (V c main_arg1) (V c main_arg0) (V c main_arg2) (V c main_v1)) (funext fun a => Fin.ext ?_)
  match a with
  | ⟨0, _⟩ => show 128 * t.val + (y 0).val = win2_4.index t (0 : Fin 2) * 128 + 1 * (y 0).val; omega
  | ⟨1, _⟩ => show 0 = win2_4.index t (1 : Fin 2) * 1 + 1 * (y 1).val; have : (y 1).val < 1 := (y 1).isLt; omega

/-- An index of the output column is in point `t`'s block iff each coordinate is in the block's range on its axis. -/
theorem mem_blk2 (t : Fin cfg2.N) (i : S8192x1.Idx) :
    i ∈ ((cfg2.win 4).blk t).view.set ↔ ∀ a : Fin 2, win2_4.index t a * S128x1.size a ≤ (i a).val ∧ (i a).val < win2_4.index t a * S128x1.size a + S128x1.size a := by
  show i ∈ ((View.whole main_v3).slice (win2_4.rect t)).set ↔ _
  rw [View.set_slice_whole, Rect.mem_set_unit]
  exact Iff.rfl

/-- Row `i` of the output column is written by point `i / 128`. -/
theorem cover2 (i : S8192x1.Idx) : ∃ t : Fin cfg2.N, (cfg2.win 4).flush t = true ∧ i ∈ ((cfg2.win 4).blk t).view.set := by
  have hi0 : (i 0).val < 8192 := (i 0).isLt
  have hi1 : (i 1).val < 1 := (i 1).isLt
  have hN : cfg2.N = 64 := N_2
  have hlt : (i 0).val / 128 < cfg2.N := by rw [hN]; omega
  obtain ⟨-, -, -, -, -, -, -, -, e0, e1⟩ := idx2_facts ⟨(i 0).val / 128, hlt⟩
  refine ⟨⟨(i 0).val / 128, hlt⟩, flush2_4 _, ?_⟩
  rw [mem_blk2]
  intro a
  match a with
  | ⟨0, _⟩ =>
    show win2_4.index ⟨(i 0).val / 128, hlt⟩ (0 : Fin 2) * 128 ≤ (i 0).val ∧ (i 0).val < win2_4.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win2_4.index ⟨(i 0).val / 128, hlt⟩ (1 : Fin 2) * 1 ≤ (i 1).val ∧ (i 1).val < win2_4.index ⟨(i 0).val / 128, hlt⟩ (1 : Fin 2) * 1 + 1
    rw [e1]; omega

end Cert.KernelIdeal.Masked

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Contrastive

variable (V : (c : Dev nD) → (b : Ref sig .tc) → Buf (Elt Ideal) ((c : Thread nD τ).loc b))

/-- After the second launch its output column holds `normAfter (sim x y) p` over the normalisers it read. -/
theorem masked_mp (c : Dev nD) :
    (dat1 (F := Ideal) V c).arrAt 4 cfg1.N = maskedArr (V c main_arg0) (V c main_arg1) (V c main_arg2) (V c main_v0_0) :=
  (dat1 (F := Ideal) V c).arrAt_eq_of_cover 4 (maskedArr (V c main_arg0) (V c main_arg1) (V c main_arg2) (V c main_v0_0))
    (fun t _ => Masked.flushed1_eq V c t) Masked.cover1

/-- After the third launch likewise, with the matrices exchanged. -/
theorem masked_sc (c : Dev nD) :
    (dat2 (F := Ideal) V c).arrAt 4 cfg2.N = maskedArr (V c main_arg1) (V c main_arg0) (V c main_arg2) (V c main_v1) :=
  (dat2 (F := Ideal) V c).arrAt_eq_of_cover 4 (maskedArr (V c main_arg1) (V c main_arg0) (V c main_arg2) (V c main_v1))
    (fun t _ => Masked.flushed2_eq V c t) Masked.cover2

end Cert.KernelIdeal.RegionValue

end
-- ==== Proof.Chain.lean ====
/-
  From the three launches to the loss. The buffer contents at the segment boundaries form a fold through @main; read
  at the result buffer it is the host's closing operations applied to the two columns the masked launches wrote. The
  first masked launch read the two matrices, the weights and the row sums the first launch wrote; the second read the
  matrices exchanged, the weights, and the column sums after the host reshaped the 1 × 8192 row into a column
  (entry `k` of the row becomes entry `(k, 0)` of the column: the same row-major position). No launch and no host
  operation writes an argument, so at every boundary the arguments are as launched. Put together the result is `lossK`.
-/
import proofs.«143298_j80711025426432_1_alg».proof.Proof.Gen.KernelIdeal.Frame
import proofs.«143298_j80711025426432_1_alg».proof.Proof.Spec
import proofs.«143298_j80711025426432_1_alg».proof.Proof.Stats
import proofs.«143298_j80711025426432_1_alg».proof.Proof.Masked
import Idealize.ShloMosaic.Lib.StableHlo.Run
import Idealize.ShloMosaic.PureOps.Ideal.Laws
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Contrastive

/-! ## The host's closing operations -/

/-- Minus the mean of the logarithms of a column, as the host computes it, at the one index of a scalar: the sum over
    the 8192 × 1 indices is the sum over the rows. -/
theorem negMeanLog_host (a : Col) (i : S_.Idx) :
    (Host.negf (F := Ideal) (Host.divf (Host.reduceAdd (Host.log a) (constant S_ .f32 0x00000000#32)
        reducesTo_S8192x1_S_d0_1 h_S_) (constant S_ .f32 0x46000000#32))) i
      = negMeanLog (fun k => a (ix2 k 0)) := by
  show -(Ideal.div (Ideal.hostReduceAdd reducesTo_S8192x1_S_d0_1 (fun k => Ideal.log (a k)) (Ideal.ofBits .f32 0x00000000#32) i)
      (Ideal.ofBits .f32 0x46000000#32)) = _
  rw [Ideal.hostReduceAdd_total reducesTo_S8192x1_S_d0_1 (fun b => b.elim0), Ideal.ofBits_zero_f32, zero_add, sum_idx2]
  simp only [Fin.sum_univ_one]
  rfl

/-- The closing operations on two columns are `tail`. -/
theorem tail_host (a b : Col) :
    addf (F := Ideal) (mulf (constant S_ .f32 0x3F000000#32)
        (Host.negf (Host.divf (Host.reduceAdd (Host.log a) (constant S_ .f32 0x00000000#32) reducesTo_S8192x1_S_d0_1 h_S_)
          (constant S_ .f32 0x46000000#32))))
      (mulf (constant S_ .f32 0x3F000000#32)
        (Host.negf (Host.divf (Host.reduceAdd (Host.log b) (constant S_ .f32 0x00000000#32) reducesTo_S8192x1_S_d0_1 h_S_)
          (constant S_ .f32 0x46000000#32))))
      = fun _ => tail a b := by
  funext i
  show Ideal.ofBits .f32 0x3F000000#32 * _ + Ideal.ofBits .f32 0x3F000000#32 * _ = _
  rw [negMeanLog_host a i, negMeanLog_host b i]
  rfl

variable (m : (ℓ : Loc nD τ sig) → Buf (Elt Ideal) ℓ) (ρ : Dev nD → PrngReg)

/-! ## The arguments at every boundary -/

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 (c : Dev nD) : W1 m ρ c (Proc.devRef .tc main_arg2) = m ((c : Thread nD τ).loc main_arg2) :=
  W1_of_ne m ρ c main_arg2 (by decide)

/-- The one host operation between the launches writes only the reshaped column. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
      simp only [hostOps1, List.Forall, StableHlo.reshape_writes, Finset.mem_singleton]
      exact StableHlo.devRef_ne_of_ne hb))

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)

theorem W3_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_arg0 m ρ c)
theorem W3_arg1 (c : Dev nD) : W3 m ρ c (Proc.devRef .tc main_arg1) = m ((c : Thread nD τ).loc main_arg1) :=
  ((W3_arr m ρ c 1).trans (((dat1 (V2 m ρ) c).arrAt_in 1 rfl _).trans (A_eq1 (V2 m ρ) c 1))).trans (W2_arg1 m ρ c)
theorem W3_arg2 (c : Dev nD) : W3 m ρ c (Proc.devRef .tc main_arg2) = m ((c : Thread nD τ).loc main_arg2) :=
  ((W3_arr m ρ c 2).trans (((dat1 (V2 m ρ) c).arrAt_in 2 rfl _).trans (A_eq1 (V2 m ρ) c 2))).trans (W2_arg2 m ρ c)

/-! ## What the launches and the reshape leave -/

/-- The row sums, as the first masked launch finds them. -/
theorem W2_rows (c : Dev nD) :
    W2 m ρ c (Proc.devRef .tc main_v0_0)
      = rowSumArr (m ((c : Thread nD τ).loc main_arg0)) (m ((c : Thread nD τ).loc main_arg1)) :=
  ((W2_of_ne m ρ c main_v0_0 (by decide)).trans (W1_arr m ρ c 2)).trans (stats_rows (V0 m ρ) c)

/-- The column sums as the first launch leaves them: a row. -/
theorem W1_cols (c : Dev nD) :
    W1 m ρ c (Proc.devRef .tc main_v0_1)
      = colSumArr (m ((c : Thread nD τ).loc main_arg0)) (m ((c : Thread nD τ).loc main_arg1)) :=
  (W1_arr m ρ c 3).trans (stats_cols (V0 m ρ) c)

/-- The host's reshape turns that row into a column: entry `(k, 0)` is the row's entry `(0, k)`. -/
theorem W2_cols (c : Dev nD) (k : Fin 8192) :
    (W2 m ρ c (Proc.devRef .tc main_v1) : Col) (ix2 k 0)
      = colSum (m ((c : Thread nD τ).loc main_arg0)) (m ((c : Thread nD τ).loc main_arg1)) k := by
  have e : (W2 m ρ c (Proc.devRef .tc main_v1) : Col)
      = shapeCast S8192x1 (W1 m ρ c (Proc.devRef .tc main_v0_1) : Row) shapeCasts_S1x8192_S8192x1 := by
    show StableHlo.after hostOps1 (W1 m ρ c) (Proc.devRef .tc main_v1) = _
    after_results
    rfl
  rw [e, W1_cols m ρ c,
    Idealize.ShloMosaic.shapeCast_apply (s := S1x8192) (t := S8192x1) _ shapeCasts_S1x8192_S8192x1 (ix2 k 0) (ix2 0 k) (by
      rw [Shape.rowMajor_val_two, Shape.rowMajor_val_two]; simp)]
  rfl

/-- The first masked launch's column. -/
theorem W4_mp (c : Dev nD) :
    W4 m ρ c (Proc.devRef .tc main_v2)
      = maskedArr (m ((c : Thread nD τ).loc main_arg0)) (m ((c : Thread nD τ).loc main_arg1)) (m ((c : Thread nD τ).loc main_arg2))
          (rowSumArr (m ((c : Thread nD τ).loc main_arg0)) (m ((c : Thread nD τ).loc main_arg1))) := by
  refine ((W4_of_ne m ρ c main_v2 (by decide)).trans ((W3_arr m ρ c 4).trans (masked_mp (V2 m ρ) c))).trans ?_
  show maskedArr (W2 m ρ c (Proc.devRef .tc main_arg0)) (W2 m ρ c (Proc.devRef .tc main_arg1)) (W2 m ρ c (Proc.devRef .tc main_arg2))
      (W2 m ρ c (Proc.devRef .tc main_v0_0)) = _
  rw [W2_arg0, W2_arg1, W2_arg2, W2_rows]

/-- The second masked launch's column, at a row. -/
theorem W4_sc (c : Dev nD) (a : Fin 8192) :
    (W4 m ρ c (Proc.devRef .tc main_v3) : Col) (ix2 a 0)
      = normAfter (sim (m ((c : Thread nD τ).loc main_arg1)) (m ((c : Thread nD τ).loc main_arg0))) (m ((c : Thread nD τ).loc main_arg2))
          (colSum (m ((c : Thread nD τ).loc main_arg0)) (m ((c : Thread nD τ).loc main_arg1))) a := by
  have e : W4 m ρ c (Proc.devRef .tc main_v3)
      = maskedArr (W3 m ρ c (Proc.devRef .tc main_arg1)) (W3 m ρ c (Proc.devRef .tc main_arg0)) (W3 m ρ c (Proc.devRef .tc main_arg2))
          (W3 m ρ c (Proc.devRef .tc main_v1)) :=
    (W4_arr m ρ c 4).trans (masked_sc (V3 m ρ) c)
  rw [e, W3_arg0, W3_arg1, W3_arg2, W3_of_ne m ρ c main_v1 (by decide)]
  have hk : (fun k : Fin 8192 => (W2 m ρ c (Proc.devRef .tc main_v1) : Col) (ix2 k 0))
      = colSum (m ((c : Thread nD τ).loc main_arg0)) (m ((c : Thread nD τ).loc main_arg1)) := funext (W2_cols m ρ c)
  show normAfter _ _ (fun k : Fin 8192 => (W2 m ρ c (Proc.devRef .tc main_v1) : Col) (ix2 k 0)) a = _
  rw [hk]

/-! ## The result -/

/-- The result buffer after @main holds `lossK` of the argument arrays as launched. -/
theorem result_eq (c : Dev nD) :
    W5 (F := Ideal) m ρ c (Proc.devRef .tc main_v14)
      = fun _ => lossK (m ((c : Thread nD τ).loc main_arg0)) (m ((c : Thread nD τ).loc main_arg1)) (m ((c : Thread nD τ).loc main_arg2)) := by
  have e : W5 (F := Ideal) m ρ c (Proc.devRef .tc main_v14)
      = fun _ => tail (W4 m ρ c (Proc.devRef .tc main_v2)) (W4 m ρ c (Proc.devRef .tc main_v3)) := by
    show StableHlo.after hostOps3 (W4 m ρ c) (Proc.devRef .tc main_v14) = _
    after_results
    exact tail_host _ _
  rw [e]
  funext _
  unfold tail lossK
  rw [W4_mp m ρ c]
  simp only [W4_sc m ρ c]
  rfl

end Cert.KernelIdeal.RegionValue

end
-- ==== Proof.RefSide.lean ====
/-
  The reference program's result, read back operation by operation, is `lossR` of its arguments: the similarity matrix
  through the host's product, norms, quotients and exponential; each direction's normalised, weighted row sums; the
  logarithms' mean; the two halves added.
-/
import proofs.«143298_j80711025426432_1_alg».proof.Proof.Gen.ReferenceIdeal.Read
import proofs.«143298_j80711025426432_1_alg».proof.Proof.Spec
import Idealize.ShloMosaic.PureOps.Ideal.Laws
import Idealize.ShloMosaic.Lib.Pipeline.Value
import Idealize.ShloMosaic.Lib.ValueLayout
import Idealize.ShloMosaic.Lib.ValueIdxRank1

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.ValueIdx
open Contrastive

/-- The first matrix's norm column at row `i` is the root of the row's sum of squares. -/
theorem nrm0_at (x : (⟨S8192x64, .f32⟩ : BufTy).Contents (Elt Ideal)) (i : Fin 8192) :
    val_main_v1 (F := Ideal) x (ix2 i (0 : Fin 1)) = nrm x i := by
  have hidx : ∀ k : Fin 64, idx_main_call0_v1 (idx_main_call0_v2 (ix2 i (0 : Fin 1))) k = ix2 i k := fun k =>
    funext fun a => Fin.ext (by match a with | ⟨0, _⟩ => rfl | ⟨1, _⟩ => rfl)
  rw [val_main_v1_apply, val_main_call0_v2_apply, val_main_call0_v1_apply, val_main_call0_cst_apply]
  simp only [hidx, val_main_call0_v0_apply, Ideal.hostUnary_sqrt_def, Ideal.mulf_def, Ideal.ofBits_def, Ideal.ofBits_zero_f32, zero_add]
  rfl

/-- The same for the second matrix. -/
theorem nrm1_at (y : (⟨S8192x64, .f32⟩ : BufTy).Contents (Elt Ideal)) (j : Fin 8192) :
    val_main_v2 (F := Ideal) y (ix2 j (0 : Fin 1)) = nrm y j := by
  have hidx : ∀ k : Fin 64, idx_main_call1_v1 (idx_main_call1_v2 (ix2 j (0 : Fin 1))) k = ix2 j k := fun k =>
    funext fun a => Fin.ext (by match a with | ⟨0, _⟩ => rfl | ⟨1, _⟩ => rfl)
  rw [val_main_v2_apply, val_main_call1_v2_apply, val_main_call1_v1_apply, val_main_call1_cst_apply]
  simp only [hidx, val_main_call1_v0_apply, Ideal.hostUnary_sqrt_def, Ideal.mulf_def, Ideal.ofBits_def, Ideal.ofBits_zero_f32, zero_add]
  rfl

/-- The product of the first matrix with the second's transpose, at `(i, j)`, is the inner product of rows `i` and `j`. -/
theorem dot_at (x y : (⟨S8192x64, .f32⟩ : BufTy).Contents (Elt Ideal)) (i j : Fin 8192) :
    val_main_v4 (F := Ideal) x y (ix2 i j) = dot x y i j := by
  have hl : ∀ k : Fin 64, lidx_main_v4 (ix2 i j) k = ix2 i k := fun k =>
    funext fun a => Fin.ext (by match a with | ⟨0, _⟩ => rfl | ⟨1, _⟩ => rfl)
  have hr : ∀ k : Fin 64, idx_main_v3 (ridx_main_v4 (ix2 i j) k) = ix2 j k := fun k =>
    funext fun a => Fin.ext (by match a with | ⟨0, _⟩ => rfl | ⟨1, _⟩ => rfl)
  rw [val_main_v4_apply]
  simp only [val_main_v3_apply, hl, hr]
  rfl

/-- The exponentiated, tempered cosine matrix at `(i, j)`. -/
theorem sim_at (x y : (⟨S8192x64, .f32⟩ : BufTy).Contents (Elt Ideal)) (i j : Fin 8192) :
    val_main_v12 (F := Ideal) x y (ix2 i j) = sim x y i j := by
  have h6 : idx_main_v6 (ix2 i j) = ix2 i (0 : Fin 1) :=
    funext fun a => Fin.ext (by match a with | ⟨0, _⟩ => rfl | ⟨1, _⟩ => rfl)
  have h7 : idx_main_v5 (idx_main_v7 (ix2 i j)) = ix2 j (0 : Fin 1) :=
    funext fun a => Fin.ext (by match a with | ⟨0, _⟩ => rfl | ⟨1, _⟩ => rfl)
  rw [val_main_v12_apply, val_main_v11_apply, val_main_v9_apply, val_main_v8_apply, val_main_v6_apply, val_main_v7_apply,
    val_main_v5_apply, val_main_v10_apply, val_main_cst_apply, h6, h7, nrm0_at, nrm1_at, dot_at]
  simp only [Ideal.hostUnary_exp_def, Ideal.hostDivf_def, Ideal.mulf_def, Ideal.ofBits_def]
  rfl

/-- Its transpose at `(a, b)` is the matrix at `(b, a)`. -/
theorem simT_at (x y : (⟨S8192x64, .f32⟩ : BufTy).Contents (Elt Ideal)) (a b : Fin 8192) :
    val_main_v13 (F := Ideal) x y (ix2 a b) = sim x y b a := by
  have h : idx_main_v13 (ix2 a b) = ix2 b a :=
    funext fun d => Fin.ext (by match d with | ⟨0, _⟩ => rfl | ⟨1, _⟩ => rfl)
  rw [val_main_v13_apply, h, sim_at]

/-- The integer weights, converted, at `(i, j)`. -/
theorem wt_at (p : (⟨S8192x8192, .i32⟩ : BufTy).Contents (Elt Ideal)) (i j : Fin 8192) :
    val_main_v0 (F := Ideal) p (ix2 i j) = wt p i j := rfl

/-- Row `i` of the matrix, every entry divided by the row's sum plus the stabiliser, then weighted and summed. -/
theorem row_at (x y : (⟨S8192x64, .f32⟩ : BufTy).Contents (Elt Ideal)) (p : (⟨S8192x8192, .i32⟩ : BufTy).Contents (Elt Ideal))
    (i : Fin 8192) : val_main_v21 (F := Ideal) x y p (ix1 i) = normBefore (sim x y) p i := by
  have h21 : ∀ k : Fin 8192, idx_main_v21 (ix1 i) k = ix2 i k := fun k =>
    funext fun a => Fin.ext (by match a with | ⟨0, _⟩ => rfl | ⟨1, _⟩ => rfl)
  have h18 : ∀ k : Fin 8192, idx_main_v18 (ix2 i k) = ix2 i (0 : Fin 1) := fun k =>
    funext fun a => Fin.ext (by match a with | ⟨0, _⟩ => rfl | ⟨1, _⟩ => rfl)
  have h15 : idx_main_v15 (ix2 i (0 : Fin 1)) = ix1 i :=
    funext fun a => Fin.ext (by match a with | ⟨0, _⟩ => rfl)
  have h14 : ∀ k : Fin 8192, idx_main_v14 (ix1 i) k = ix2 i k := fun k =>
    funext fun a => Fin.ext (by match a with | ⟨0, _⟩ => rfl | ⟨1, _⟩ => rfl)
  rw [val_main_v21_apply, val_main_cst_2_apply]
  simp only [h21, val_main_v20_apply, val_main_v19_apply, val_main_v18_apply, h18, val_main_v17_apply, val_main_v15_apply, h15,
    val_main_v14_apply, h14, val_main_cst_0_apply, val_main_v16_apply, val_main_cst_1_apply, sim_at, wt_at,
    Ideal.hostDivf_def, Ideal.mulf_def, Ideal.addf_def, Ideal.ofBits_def, Ideal.ofBits_zero_f32, zero_add]
  rfl

/-- The same over the transposed matrix. -/
theorem col_at (x y : (⟨S8192x64, .f32⟩ : BufTy).Contents (Elt Ideal)) (p : (⟨S8192x8192, .i32⟩ : BufTy).Contents (Elt Ideal))
    (a : Fin 8192) : val_main_v33 (F := Ideal) x y p (ix1 a) = normBefore (fun a b => sim x y b a) p a := by
  have h33 : ∀ k : Fin 8192, idx_main_v33 (ix1 a) k = ix2 a k := fun k =>
    funext fun d => Fin.ext (by match d with | ⟨0, _⟩ => rfl | ⟨1, _⟩ => rfl)
  have h30 : ∀ k : Fin 8192, idx_main_v30 (ix2 a k) = ix2 a (0 : Fin 1) := fun k =>
    funext fun d => Fin.ext (by match d with | ⟨0, _⟩ => rfl | ⟨1, _⟩ => rfl)
  have h27 : idx_main_v27 (ix2 a (0 : Fin 1)) = ix1 a :=
    funext fun d => Fin.ext (by match d with | ⟨0, _⟩ => rfl)
  have h26 : ∀ k : Fin 8192, idx_main_v26 (ix1 a) k = ix2 a k := fun k =>
    funext fun d => Fin.ext (by match d with | ⟨0, _⟩ => rfl | ⟨1, _⟩ => rfl)
  rw [val_main_v33_apply, val_main_cst_7_apply]
  simp only [h33, val_main_v32_apply, val_main_v31_apply, val_main_v30_apply, h30, val_main_v29_apply, val_main_v27_apply, h27,
    val_main_v26_apply, h26, val_main_cst_5_apply, val_main_v28_apply, val_main_cst_6_apply, simT_at, wt_at,
    Ideal.hostDivf_def, Ideal.mulf_def, Ideal.addf_def, Ideal.ofBits_def, Ideal.ofBits_zero_f32, zero_add]
  rfl

/-- The scalar the reference returns, as a function of its three arguments. -/
theorem tail_eq (x y : (⟨S8192x64, .f32⟩ : BufTy).Contents (Elt Ideal)) (p : (⟨S8192x8192, .i32⟩ : BufTy).Contents (Elt Ideal)) :
    val_main_v40 (F := Ideal) x y p = fun _ => lossR x y p := by
  funext i
  rw [val_main_v40_apply, val_main_v38_apply, val_main_v39_apply, val_main_cst_10_apply, val_main_cst_11_apply,
    val_main_v25_apply, val_main_v37_apply, val_main_v24_apply, val_main_v36_apply, val_main_v23_apply, val_main_v35_apply,
    val_main_cst_3_apply, val_main_cst_8_apply, val_main_cst_4_apply, val_main_cst_9_apply,
    ← Equiv.sum_comp (idxEquiv1 (n := 8192)).symm (val_main_v22 (F := Ideal) x y p),
    ← Equiv.sum_comp (idxEquiv1 (n := 8192)).symm (val_main_v34 (F := Ideal) x y p)]
  have he : ∀ k : Fin 8192, (idxEquiv1 (n := 8192)).symm k = ix1 k := fun _ => rfl
  simp only [he, val_main_v22_apply, val_main_v34_apply, row_at, col_at,
    Ideal.hostUnary_log_def, Ideal.hostDivf_def, Ideal.hostNegf_def, Ideal.negf_def, Ideal.mulf_def, Ideal.addf_def,
    Ideal.ofBits_def, Ideal.ofBits_zero_f32, zero_add]
  rfl

/-- The reference's result term is `lossR` of the three argument arrays. -/
theorem ref_eq (m : (ℓ : Loc nD τ sig) → Buf (Elt Ideal) ℓ) (c : Dev nD) :
    res_main_v40 (F := Ideal) m c
      = fun _ => lossR (m ((c.tc : Thread nD τ).loc main_arg0)) (m ((c.tc : Thread nD τ).loc main_arg1)) (m ((c.tc : Thread nD τ).loc main_arg2)) :=
  (val_main_v40_eq m c).trans (tail_eq _ _ _)

end Cert.ReferenceIdeal.RefValue

end
-- ==== Proof.Law.lean ====
/-
  The one law: normalising after the weighted sum and normalising every term before it agree on the extended reals.
  For `s ≥ 0` (an exponential), real weights `w` and `ε > 0` real, put `c = ∑ⱼ sⱼ + ε`; then `c > 0`, so dividing by `c`
  is multiplying by `c⁻¹`. If some `sⱼ = ⊤` then `c = ⊤`, `c⁻¹ = 0` and both sides are `0`; otherwise every `sⱼ` and `c`
  are reals and the identity is the distributive law of ℝ. With it, and `sim y x j i = sim x y i j`
  (commutativity of the products), the two spellings of the loss are equal.
-/
import proofs.«143298_j80711025426432_1_alg».proof.Proof.Spec

noncomputable section

namespace Contrastive

open Idealize.ShloMosaic Idealize.ShloMosaic.ValueIdx

namespace Law

/-- An exponential is never negative: it is `0` at `⊥`, `⊤` at `⊤`, and a positive real at a real. -/
theorem exp_nonneg (e : EReal) : 0 ≤ Ideal.exp e := by
  induction e using EReal.rec with
  | bot => simp
  | top => simp
  | coe r => simp only [Ideal.exp_coe]; exact_mod_cast (Real.exp_pos r).le

/-- The stabiliser is a positive real: its pattern has sign `0`, exponent field `100` and fraction `2870391`,
    so it denotes `(2²³ + 2870391) · 2⁻⁵⁰ = 11258999 · 2⁻⁵⁰`. -/
theorem eps_pos_real : ∃ e : ℝ, 0 < e ∧ eps = (e : EReal) := by
  refine ⟨(11258999 : ℝ) * (2 : ℝ) ^ (-50 : Int), by positivity, ?_⟩
  simp [eps, Ideal.ofBits, Ideal.ieee, -EReal.coe_mul]

/-- The inclusion of ℝ in the extended reals commutes with finite sums. -/
theorem coe_sum {J : Type} (t : Finset J) (f : J → ℝ) :
    ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- The law. With `c = ∑ⱼ sⱼ + ε > 0`: `(∑ⱼ sⱼ · wⱼ) / c = ∑ⱼ (sⱼ / c) · wⱼ` for `s ≥ 0`, real `w`, real `ε > 0`. -/
theorem div_sum {J : Type} [Fintype J] (s : J → EReal) (hs : ∀ j, 0 ≤ s j) (w : J → ℝ) (e : ℝ) (he : 0 < e) :
    Ideal.div (∑ j, s j * (w j : EReal)) (∑ j, s j + (e : EReal))
      = ∑ j, Ideal.div (s j) (∑ j, s j + (e : EReal)) * (w j : EReal) := by
  -- the normaliser is positive, so the quotient is a product with the inverse
  have hsum : 0 ≤ ∑ j, s j := Finset.sum_nonneg (fun j _ => hs j)
  have hc : 0 < ∑ j, s j + (e : EReal) := by
    have h0 : (0 : EReal) < (e : EReal) := by exact_mod_cast he
    exact lt_of_lt_of_le h0 (le_add_of_nonneg_left hsum)
  have hc0 : ∑ j, s j + (e : EReal) ≠ 0 := hc.ne'
  simp only [Ideal.div, if_neg hc0]
  by_cases htop : ∃ j, s j = ⊤
  · -- an infinite term makes the normaliser infinite, its inverse zero, and both sides zero
    obtain ⟨j0, hj0⟩ := htop
    have hT : ∑ j, s j = ⊤ := by
      apply top_le_iff.mp
      calc ⊤ = s j0 := hj0.symm
        _ ≤ ∑ j, s j := Finset.single_le_sum (fun j _ => hs j) (Finset.mem_univ j0)
    rw [hT, EReal.top_add_coe, EReal.inv_top]
    simp
  · -- otherwise every term is a real, and the identity is distributivity in ℝ
    simp only [not_exists] at htop
    obtain ⟨r, rfl⟩ : ∃ r : J → ℝ, s = fun j => (r j : EReal) :=
      ⟨fun j => (s j).toReal, funext fun j =>
        (EReal.coe_toReal (htop j) (lt_of_lt_of_le EReal.bot_lt_zero (hs j)).ne').symm⟩
    simp only [← EReal.coe_mul, ← coe_sum, ← EReal.coe_add, ← EReal.coe_inv]
    congr 1
    rw [Finset.sum_mul]
    exact Finset.sum_congr rfl (fun j _ => by ring)

/-- Exchanging the two matrices transposes the similarity: the inner product and the product of the norms commute. -/
theorem sim_comm (x y : Emb) (i j : Fin 8192) : sim y x j i = sim x y i j := by
  have h1 : dot y x j i = dot x y i j := by
    unfold dot; exact Finset.sum_congr rfl (fun d _ => mul_comm _ _)
  unfold sim; rw [h1, mul_comm (nrm y j)]

end Law

/-- The kernel's and the reference's loss are one function of the arguments. -/
theorem lossK_eq_lossR (x y : Emb) (p : Wts) : lossK x y p = lossR x y p := by
  obtain ⟨e, he, hee⟩ := Law.eps_pos_real
  -- row direction: the law on row `i` of the similarity matrix
  have hA : normAfter (sim x y) p (rowSum x y) = normBefore (sim x y) p := by
    funext i
    unfold normAfter normBefore rowSum wt
    rw [hee]
    exact Law.div_sum (sim x y i) (fun j => Law.exp_nonneg _) (fun j => ((p (ix2 i j)).toInt : ℝ)) e he
  -- column direction: the exchanged similarity is the transpose, then the law on column `i`
  have hB : normAfter (sim y x) p (colSum x y) = normBefore (fun a b => sim x y b a) p := by
    have hS : sim y x = fun a b => sim x y b a := by funext a b; exact Law.sim_comm x y b a
    rw [hS]
    funext i
    unfold normAfter normBefore colSum wt
    rw [hee]
    exact Law.div_sum (fun b => sim x y b i) (fun j => Law.exp_nonneg _) (fun j => ((p (ix2 i j)).toInt : ℝ)) e he
  unfold lossK lossR
  rw [hA, hB]

end Contrastive

end
-- ==== Proof.lean ====
/-
  The certificate of the contrastive loss kernel against its reference, over the extended reals.

  The kernel runs three launches — row and column sums of the similarity matrix `sim x y`; for each row the weighted
  sum of its similarities over the row sum; the same for the columns with the matrices exchanged — and closes on the
  host with minus the mean logarithm of each column, halved and added (`lossK`). The reference forms the whole
  similarity matrix and its transpose on the host, divides every entry by its row's sum first, weights, sums, and closes
  the same way (`lossR`). The two are one function of the arguments on the extended reals: dividing a weighted sum
  of nonnegative terms by their total plus a positive real is dividing every term (when a term is `⊤` the total is
  `⊤` and both sides vanish; otherwise everything is real), and the exchanged similarity is the transposed one by
  commutativity of the products. Nothing here needs the inputs finite.

  The three frames: the kernel's two are the several-launch frame at the two instances; the reference's is its run
  with the result dropped. The idealization rewrote nothing, so `preserves` is trivial.
-/
import proofs.«143298_j80711025426432_1_alg».proof.Defs
import proofs.«143298_j80711025426432_1_alg».proof.Proof.Gen.Kernel
import proofs.«143298_j80711025426432_1_alg».proof.Proof.Gen.Kernel.Frame
import proofs.«143298_j80711025426432_1_alg».proof.Proof.Gen.KernelIdeal
import proofs.«143298_j80711025426432_1_alg».proof.Proof.Gen.KernelIdeal.Frame
import proofs.«143298_j80711025426432_1_alg».proof.Proof.Gen.ReferenceIdeal
import proofs.«143298_j80711025426432_1_alg».proof.Proof.Gen.ReferenceIdeal.Run
import proofs.«143298_j80711025426432_1_alg».proof.Proof.Gen.Pre_finite_inputs
import proofs.«143298_j80711025426432_1_alg».proof.Proof.RunValue
import proofs.«143298_j80711025426432_1_alg».proof.Proof.Chain
import proofs.«143298_j80711025426432_1_alg».proof.Proof.RefSide
import proofs.«143298_j80711025426432_1_alg».proof.Proof.Law
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at one value: the kernel's at `lossK` of its arguments (the launches and the
    host's operations read back), the reference's at `lossR` of arguments that agree, and the two are equal. -/
theorem algebraic : Cert.algebraic_KernelIdeal_ReferenceIdeal := by
  intro m ρ m' ρ' _ hagree
  refine ⟨fun c => fun _ => Contrastive.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.RegionValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_eq m' c, (hagree c).1, (hagree c).2.1, (hagree c).2.2]
    exact funext fun _ => (Contrastive.lossK_eq_lossR _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
